-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v26)) (v1 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S20000x256 : Shape := ⟨2, ![20000, 256]⟩
abbrev S2x300000 : Shape := ⟨2, ![2, 300000]⟩
abbrev S256x256 : Shape := ⟨2, ![256, 256]⟩
abbrev S256 : Shape := ⟨1, ![256]⟩
abbrev S512x256 : Shape := ⟨2, ![512, 256]⟩
abbrev S_ : Shape := ⟨0, ![]⟩
abbrev S1x300000 : Shape := ⟨2, ![1, 300000]⟩
abbrev S300000 : Shape := ⟨1, ![300000]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S20000x256 : S_.BroadcastsInDim S20000x256 (![] : Fin 0 → Fin S20000x256.rank)
  reducesTo_S20000x256_S_d0_1 : S20000x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_
  slices_S2x300000_S1x300000_0_0 : S2x300000.Slices ![0, 0] S1x300000
  shapeCasts_S1x300000_S300000 : S1x300000.ShapeCasts S300000
  bcast_S_S300000 : S_.BroadcastsInDim S300000 (![] : Fin 0 → Fin S300000.rank)
  reducesTo_S300000_S_d0 : S300000.ReducesTo [0] S_
  slices_S2x300000_S1x300000_1_0 : S2x300000.Slices ![1, 0] S1x300000

variable [Facts]

def fn_part3 {F : FTy → Type} [FloatOps F] (main_arg2 : IVec S2x300000 32) (main_v49 : IVec S_ 1) (main_v51 : IVec S300000 32) (main_c_17 : IVec S_ 32) : IVec S_ 1 :=
  let main_v52 : IVec S300000 32 := broadcastInDim S300000 ![] bcast_S_S300000 main_c_17
  let main_v53 : IVec S300000 1 := cmpi .sge main_v51 main_v52
  let main_v54 : IVec S1x300000 32 := (extractStridedSlice S1x300000 ![1, 0] · slices_S2x300000_S1x300000_1_0) main_arg2
  let main_v55 : IVec S300000 32 := shapeCast S300000 main_v54 shapeCasts_S1x300000_S300000
  let main_c_18 : IVec S_ 32 := constantI S_ 32 20000#32
  let main_v56 : IVec S300000 32 := broadcastInDim S300000 ![] bcast_S_S300000 main_c_18
  let main_v57 : IVec S300000 1 := cmpi .slt main_v55 main_v56
  let main_v58 : IVec S300000 1 := andi main_v53 main_v57
  let main_c_19 : IVec S_ 1 := constantI S_ 1 1#1
  let main_v59 : IVec S_ 1 := (fun x v => Host.reduce IntOp.andi x v reducesTo_S300000_S_d0 h_S_) main_v58 main_c_19
  let main_v60 : IVec S_ 1 := andi main_v49 main_v59
  main_v60

def fn_part2 {F : FTy → Type} [FloatOps F] (main_arg2 : IVec S2x300000 32) (main_arg8 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : IVec S1x300000 32 := (extractStridedSlice S1x300000 ![0, 0] · slices_S2x300000_S1x300000_0_0) main_arg2
  let main_v40 : IVec S300000 32 := shapeCast S300000 main_v39 shapeCasts_S1x300000_S300000
  let main_c_14 : IVec S_ 32 := constantI S_ 32 0#32
  let main_v41 : IVec S300000 32 := broadcastInDim S300000 ![] bcast_S_S300000 main_c_14
  let main_v42 : IVec S300000 1 := cmpi .sge main_v40 main_v41
  let main_v43 : IVec S1x300000 32 := (extractStridedSlice S1x300000 ![0, 0] · slices_S2x300000_S1x300000_0_0) main_arg2
  let main_v44 : IVec S300000 32 := shapeCast S300000 main_v43 shapeCasts_S1x300000_S300000
  let main_c_15 : IVec S_ 32 := constantI S_ 32 100000#32
  let main_v45 : IVec S300000 32 := broadcastInDim S300000 ![] bcast_S_S300000 main_c_15
  let main_v46 : IVec S300000 1 := cmpi .slt main_v44 main_v45
  let main_v47 : IVec S300000 1 := andi main_v42 main_v46
  let main_c_16 : IVec S_ 1 := constantI S_ 1 1#1
  let main_v48 : IVec S_ 1 := (fun x v => Host.reduce IntOp.andi x v reducesTo_S300000_S_d0 h_S_) main_v47 main_c_16
  let main_v49 : IVec S_ 1 := andi main_v38 main_v48
  let main_v50 : IVec S1x300000 32 := (extractStridedSlice S1x300000 ![1, 0] · slices_S2x300000_S1x300000_1_0) main_arg2
  let main_v51 : IVec S300000 32 := shapeCast S300000 main_v50 shapeCasts_S1x300000_S300000
  let main_c_17 : IVec S_ 32 := constantI S_ 32 0#32
  fn_part3 (F := F) main_arg2 main_v49 main_v51 main_c_17

def fn_part1 {F : FTy → Type} [FloatOps F] (main_arg2 : IVec S2x300000 32) (main_arg5 : FVec F S512x256 .f32) (main_arg6 : FVec F S256 .f32) (main_arg7 : FVec F S256x256 .f32) (main_arg8 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S512x256 .f32 := Host.absf main_arg5
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg2 main_arg8 main_v33

def fn {F : FTy → Type} [FloatOps F] (main_arg0 : FVec F S100000x256 .f32) (main_arg1 : FVec F S20000x256 .f32) (main_arg2 : IVec S2x300000 32) (main_arg3 : FVec F S256x256 .f32) (main_arg4 : FVec F S256 .f32) (main_arg5 : FVec F S512x256 .f32) (main_arg6 : FVec F S256 .f32) (main_arg7 : FVec F S256x256 .f32) (main_arg8 : FVec F S256 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S20000x256 .f32 := Host.absf main_arg1
  let main_cst_0 : FVec F S_ .f32 := constant S_ .f32 0x7F800000#32
  let main_v5 : FVec F S20000x256 .f32 := broadcastInDim S20000x256 ![] bcast_S_S20000x256 main_cst_0
  let main_v6 : IVec S20000x256 1 := cmpf .olt main_v4 main_v5
  let main_c_1 : IVec S_ 1 := constantI S_ 1 1#1
  let main_v7 : IVec S_ 1 := (fun x v => Host.reduce IntOp.andi x v reducesTo_S20000x256_S_d0_1 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg2 main_arg5 main_arg6 main_arg7 main_arg8 main_v13 main_v16
-- ==== Kernel.lean ====
abbrev S100000x256 : Shape := ⟨2, ![100000, 256]⟩
abbrev S20000x256 : Shape := ⟨2, ![20000, 256]⟩
abbrev S2x300000 : Shape := ⟨2, ![2, 300000]⟩
abbrev S256x256 : Shape := ⟨2, ![256, 256]⟩
abbrev S256 : Shape := ⟨1, ![256]⟩
abbrev S512x256 : Shape := ⟨2, ![512, 256]⟩
abbrev S1x300000 : Shape := ⟨2, ![1, 300000]⟩
abbrev S300000 : Shape := ⟨1, ![300000]⟩
abbrev S2000x256 : Shape := ⟨2, ![2000, 256]⟩
abbrev S1x256 : Shape := ⟨2, ![1, 256]⟩
abbrev S_ : Shape := ⟨0, ![]⟩
abbrev S300000x1 : Shape := ⟨2, ![300000, 1]⟩
abbrev S1 : Shape := ⟨1, ![1]⟩
abbrev S1x1 : Shape := ⟨2, ![1, 1]⟩
abbrev S300000x256 : Shape := ⟨2, ![300000, 256]⟩
abbrev S20000 : Shape := ⟨1, ![20000]⟩
abbrev S20000x1 : Shape := ⟨2, ![20000, 1]⟩
abbrev S2000x1 : Shape := ⟨2, ![2000, 1]⟩
abbrev S20000x512 : Shape := ⟨2, ![20000, 512]⟩
abbrev S2000x512 : Shape := ⟨2, ![2000, 512]⟩
abbrev S100000 : Shape := ⟨1, ![100000]⟩
abbrev S100000x1 : Shape := ⟨2, ![100000, 1]⟩

abbrev nBuf : Space → Nat
  | .hbm => 85
  | .vmem => 30
  | .smem => 0
  | _ => 0

abbrev bufTy : (tb : Table) → Fin (tcTables nBuf tb) → BufTy
  | .hbm, ⟨0, _⟩ => ⟨S100000x256, .f32⟩
  | .hbm, ⟨1, _⟩ => ⟨S20000x256, .f32⟩
  | .hbm, ⟨2, _⟩ => ⟨S2x300000, .i32⟩
  | .hbm, ⟨3, _⟩ => ⟨S256x256, .f32⟩
  | .hbm, ⟨4, _⟩ => ⟨S256, .f32⟩
  | .hbm, ⟨5, _⟩ => ⟨S512x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S1x300000, .i32⟩
  | .hbm, ⟨10, _⟩ => ⟨S300000, .i32⟩
  | .hbm, ⟨11, _⟩ => ⟨S1x300000, .i32⟩
  | .hbm, ⟨12, _⟩ => ⟨S300000, .i32⟩
  | .hbm, ⟨13, _⟩ => ⟨S100000x256, .f32⟩
  | .hbm, ⟨14, _⟩ => ⟨S_, .i32⟩
  | .hbm, ⟨15, _⟩ => ⟨S300000, .i32⟩
  | .hbm, ⟨16, _⟩ => ⟨S300000, .i1⟩
  | .hbm, ⟨17, _⟩ => ⟨S_, .i32⟩
  | .hbm, ⟨18, _⟩ => ⟨S300000, .i32⟩
  | .hbm, ⟨19, _⟩ => ⟨S300000, .i32⟩
  | .hbm, ⟨20, _⟩ => ⟨S300000, .i32⟩
  | .hbm, ⟨21, _⟩ => ⟨S300000x1, .i32⟩
  | .hbm, ⟨22, _⟩ => ⟨S1, .i32⟩
  | .hbm, ⟨23, _⟩ => ⟨S_, .i32⟩
  | .hbm, ⟨24, _⟩ => ⟨S300000x1, .i32⟩
  | .hbm, ⟨25, _⟩ => ⟨S300000x1, .i1⟩
  | .hbm, ⟨26, _⟩ => ⟨S1x1, .i32⟩
  | .hbm, ⟨27, _⟩ => ⟨S300000x1, .i32⟩
  | .hbm, ⟨28, _⟩ => ⟨S300000x1, .i1⟩
  | .hbm, ⟨29, _⟩ => ⟨S300000x1, .i1⟩
  | .hbm, ⟨30, _⟩ => ⟨S_, .i1⟩
  | .hbm, ⟨31, _⟩ => ⟨S300000, .i1⟩
  | .hbm, ⟨32, _⟩ => ⟨S300000x256, .f32⟩
  | .hbm, ⟨33, _⟩ => ⟨S300000x256, .i1⟩
  | .hbm, ⟨34, _⟩ => ⟨S_, .f32⟩
  | .hbm, ⟨35, _⟩ => ⟨S300000x256, .f32⟩
  | .hbm, ⟨36, _⟩ => ⟨S300000x256, .f32⟩
  | .hbm, ⟨37, _⟩ => ⟨S_, .f32⟩
  | .hbm, ⟨38, _⟩ => ⟨S300000, .f32⟩
  | .hbm, ⟨39, _⟩ => ⟨S_, .f32⟩
  | .hbm, ⟨40, _⟩ => ⟨S20000x256, .f32⟩
  | .hbm, ⟨41, _⟩ => ⟨S300000x1, .i32⟩
  | .hbm, ⟨42, _⟩ => ⟨S20000x256, .f32⟩
  | .hbm, ⟨43, _⟩ => ⟨S_, .f32⟩
  | .hbm, ⟨44, _⟩ => ⟨S20000, .f32⟩
  | .hbm, ⟨45, _⟩ => ⟨S300000x1, .i32⟩
  | .hbm, ⟨46, _⟩ => ⟨S20000, .f32⟩
  | .hbm, ⟨47, _⟩ => ⟨S20000x1, .f32⟩
  | .hbm, ⟨48, _⟩ => ⟨S20000x256, .f32⟩
  | .hbm, ⟨49, _⟩ => ⟨S20000x512, .f32⟩
  | .hbm, ⟨50, _⟩ => ⟨S20000x256, .f32⟩
  | .hbm, ⟨51, _⟩ => ⟨S20000x256, .f32⟩
  | .hbm, ⟨52, _⟩ => ⟨S_, .i32⟩
  | .hbm, ⟨53, _⟩ => ⟨S300000, .i32⟩
  | .hbm, ⟨54, _⟩ => ⟨S300000, .i1⟩
  | .hbm, ⟨55, _⟩ => ⟨S_, .i32⟩
  | .hbm, ⟨56, _⟩ => ⟨S300000, .i32⟩
  | .hbm, ⟨57, _⟩ => ⟨S300000, .i32⟩
  | .hbm, ⟨58, _⟩ => ⟨S300000, .i32⟩
  | .hbm, ⟨59, _⟩ => ⟨S300000x1, .i32⟩
  | .hbm, ⟨60, _⟩ => ⟨S1, .i32⟩
  | .hbm, ⟨61, _⟩ => ⟨S_, .i32⟩
  | .hbm, ⟨62, _⟩ => ⟨S300000x1, .i32⟩
  | .hbm, ⟨63, _⟩ => ⟨S300000x1, .i1⟩
  | .hbm, ⟨64, _⟩ => ⟨S1x1, .i32⟩
  | .hbm, ⟨65, _⟩ => ⟨S300000x1, .i32⟩
  | .hbm, ⟨66, _⟩ => ⟨S300000x1, .i1⟩
  | .hbm, ⟨67, _⟩ => ⟨S300000x1, .i1⟩
  | .hbm, ⟨68, _⟩ => ⟨S_, .i1⟩
  | .hbm, ⟨69, _⟩ => ⟨S300000, .i1⟩
  | .hbm, ⟨70, _⟩ => ⟨S300000x256, .f32⟩
  | .hbm, ⟨71, _⟩ => ⟨S300000x256, .i1⟩
  | .hbm, ⟨72, _⟩ => ⟨S_, .f32⟩
  | .hbm, ⟨73, _⟩ => ⟨S300000x256, .f32⟩
  | .hbm, ⟨74, _⟩ => ⟨S300000x256, .f32⟩
  | .hbm, ⟨75, _⟩ => ⟨S_, .f32⟩
  | .hbm, ⟨76, _⟩ => ⟨S100000x256, .f32⟩
  | .hbm, ⟨77, _⟩ => ⟨S300000x1, .i32⟩
  | .hbm, ⟨78, _⟩ => ⟨S100000x256, .f32⟩
  | .hbm, ⟨79, _⟩ => ⟨S_, .f32⟩
  | .hbm, ⟨80, _⟩ => ⟨S100000, .f32⟩
  | .hbm, ⟨81, _⟩ => ⟨S300000x1, .i32⟩
  | .hbm, ⟨82, _⟩ => ⟨S100000, .f32⟩
  | .hbm, ⟨83, _⟩ => ⟨S100000x1, .f32⟩
  | .hbm, ⟨84, _⟩ => ⟨S100000x256, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x1, .f32⟩
  | .local _ .vmem, ⟨9, _⟩ => ⟨S2000x1, .f32⟩
  | .local _ .vmem, ⟨10, _⟩ => ⟨S2000x256, .f32⟩
  | .local _ .vmem, ⟨11, _⟩ => ⟨S2000x256, .f32⟩
  | .local _ .vmem, ⟨12, _⟩ => ⟨S2000x512, .f32⟩
  | .local _ .vmem, ⟨13, _⟩ => ⟨S2000x512, .f32⟩
  | .local _ .vmem, ⟨14, _⟩ => ⟨S512x256, .f32⟩
  | .local _ .vmem, ⟨15, _⟩ => ⟨S256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S256x256, .f32⟩
  | .local _ .vmem, ⟨21, _⟩ => ⟨S256, .f32⟩
  | .local _ .vmem, ⟨22, _⟩ => ⟨S2000x256, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S2000x1, .f32⟩
  | .local _ .vmem, ⟨27, _⟩ => ⟨S2000x1, .f32⟩
  | .local _ .vmem, ⟨28, _⟩ => ⟨S2000x256, .f32⟩
  | .local _ .vmem, ⟨29, _⟩ => ⟨S2000x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v5 : Ref sig .tc := ⟨.hbm, 36, rfl⟩
abbrev main_cst : Ref sig .tc := ⟨.hbm, 37, rfl⟩
abbrev main_v6 : Ref sig .tc := ⟨.hbm, 38, rfl⟩
abbrev main_cst_0 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_cst_1 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_call1_c : Ref sig .tc := ⟨.hbm, 52, rfl⟩
abbrev main_call1_v0 : Ref sig .tc := ⟨.hbm, 53, rfl⟩
abbrev main_call1_v1 : Ref sig .tc := ⟨.hbm, 54, rfl⟩
abbrev main_call1_c_0 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_v5 : Ref sig .tc := ⟨.hbm, 59, rfl⟩
abbrev main_call1_c_1 : Ref sig .tc := ⟨.hbm, 60, rfl⟩
abbrev main_call1_c_2 : Ref sig .tc := ⟨.hbm, 61, rfl⟩
abbrev main_call1_v6 : Ref sig .tc := ⟨.hbm, 62, rfl⟩
abbrev main_call1_v7 : Ref sig .tc := ⟨.hbm, 63, rfl⟩
abbrev main_call1_v8 : Ref sig .tc := ⟨.hbm, 64, rfl⟩
abbrev main_call1_v9 : Ref sig .tc := ⟨.hbm, 65, rfl⟩
abbrev main_call1_v10 : Ref sig .tc := ⟨.hbm, 66, rfl⟩
abbrev main_call1_v11 : Ref sig .tc := ⟨.hbm, 67, rfl⟩
abbrev main_call1_c_3 : Ref sig .tc := ⟨.hbm, 68, rfl⟩
abbrev main_call1_v12 : Ref sig .tc := ⟨.hbm, 69, rfl⟩
abbrev main_call1_v13 : Ref sig .tc := ⟨.hbm, 70, rfl⟩
abbrev main_call1_v14 : Ref sig .tc := ⟨.hbm, 71, rfl⟩
abbrev main_call1_cst : Ref sig .tc := ⟨.hbm, 72, rfl⟩
abbrev main_call1_v15 : Ref sig .tc := ⟨.hbm, 73, rfl⟩
abbrev main_v18 : Ref sig .tc := ⟨.hbm, 74, rfl⟩
abbrev main_cst_2 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_cst_3 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x300000_S1x300000_0_0 : S2x300000.Slices ![0, 0] S1x300000
  shapeCasts_S1x300000_S300000 : S1x300000.ShapeCasts S300000
  slices_S2x300000_S1x300000_1_0 : S2x300000.Slices ![1, 0] S1x300000
  inb_S2000x256_S2000x256_0_0 : ∀ a, (![0, 0] : Fin 2 → Nat) a + S2000x256.size a ≤ S2000x256.size a
  h_S2000x256 : 0 < S2000x256.numel
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  bcast_S_S300000 : S_.BroadcastsInDim S300000 (![] : Fin 0 → Fin S300000.rank)
  bcast_S300000_S300000x1_0 : S300000.BroadcastsInDim S300000x1 (![0] : Fin 1 → Fin S300000x1.rank)
  bcast_S_S300000x1 : S_.BroadcastsInDim S300000x1 (![] : Fin 0 → Fin S300000x1.rank)
  bcast_S1_S1x1_1 : S1.BroadcastsInDim S1x1 (![1] : Fin 1 → Fin S1x1.rank)
  bcast_S1x1_S300000x1_0_1 : S1x1.BroadcastsInDim S300000x1 (![0, 1] : Fin 2 → Fin S300000x1.rank)
  reducesTo_S300000x1_S300000_d1 : S300000x1.ReducesTo [1] S300000
  h_S_ : 0 < S_.numel
  bcast_S300000_S300000x256_0 : S300000.BroadcastsInDim S300000x256 (![0] : Fin 1 → Fin S300000x256.rank)
  bcast_S_S300000x256 : S_.BroadcastsInDim S300000x256 (![] : Fin 0 → Fin S300000x256.rank)
  bcast_S_S20000x256 : S_.BroadcastsInDim S20000x256 (![] : Fin 0 → Fin S20000x256.rank)
  bcast_S_S20000 : S_.BroadcastsInDim S20000 (![] : Fin 0 → Fin S20000.rank)
  shapeCasts_S20000_S20000x1 : S20000.ShapeCasts S20000x1
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  shapeCasts_S2000x256_S2000x256 : S2000x256.ShapeCasts S2000x256
  broadcasts_S2000x1_S2000x256 : S2000x1.Broadcasts S2000x256
  concatenates_S20000x256_S20000x256_S20000x512_d1 : Shape.Concatenates [S20000x256, S20000x256] S20000x512 1
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  inb_S512x256_S512x256_0_0 : ∀ a, (![0, 0] : Fin 2 → Nat) a + S512x256.size a ≤ S512x256.size a
  h_S512x256 : 0 < S512x256.numel
  bcast_S_S100000x256 : S_.BroadcastsInDim S100000x256 (![] : Fin 0 → Fin S100000x256.rank)
  bcast_S_S100000 : S_.BroadcastsInDim S100000 (![] : Fin 0 → Fin S100000.rank)
  shapeCasts_S100000_S100000x1 : S100000.ShapeCasts S100000x1
  dot_S2000x256_S256x256_S2000x256_1_0_0_1_n_n_wf : DotDims.WF S2000x256 S256x256 S2000x256 [1] [0] [0] [1] [] []
  gather_S100000x256_S300000x1_S300000x256_1_0_n_n_0_1_1256_wf : GatherDims.WF S100000x256 S300000x1 S300000x256 [1] [0] [] [0] [] 1 ![1, 256]
  scatter_S20000x256_S300000x1_S300000x256_1_0_0_1_wf : ScatterDims.WF S20000x256 S300000x1 S300000x256 [1] [0] [0] 1
  scatter_S20000_S300000x1_S300000_n_0_0_1_wf : ScatterDims.WF S20000 S300000x1 S300000 [] [0] [0] 1
  dot_S2000x512_S512x256_S2000x256_1_0_0_1_n_n_wf : DotDims.WF S2000x512 S512x256 S2000x256 [1] [0] [0] [1] [] []
  gather_S20000x256_S300000x1_S300000x256_1_0_n_n_0_1_1256_wf : GatherDims.WF S20000x256 S300000x1 S300000x256 [1] [0] [] [0] [] 1 ![1, 256]
  scatter_S100000x256_S300000x1_S300000x256_1_0_0_1_wf : ScatterDims.WF S100000x256 S300000x1 S300000x256 [1] [0] [0] 1
  scatter_S100000_S300000x1_S300000_n_0_0_1_wf : ScatterDims.WF S100000 S300000x1 S300000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S100000x256.size a
  hwx0_3 : ∀ i : grid0.Coords, EltTy.bits .f32 = 32 ∨ (Rect.block (s := S100000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S20000x256.size a
  hwx1_0 : ∀ i : grid1.Coords, EltTy.bits .f32 = 32 ∨ (Rect.block (s := S20000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S20000x1.size a
  hwx1_1 : ∀ i : grid1.Coords, EltTy.bits .f32 = 32 ∨ (Rect.block (s := S20000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S20000x256.size a
  hwx1_2 : ∀ i : grid1.Coords, EltTy.bits .f32 = 32 ∨ (Rect.block (s := S20000x256) S2000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x512.size a ≤ S20000x512.size a
  hwx2_0 : ∀ i : grid2.Coords, EltTy.bits .f32 = 32 ∨ (Rect.block (s := S20000x512) S2000x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x256.size a ≤ S512x256.size a
  hwx2_1 : ∀ i : grid2.Coords, EltTy.bits .f32 = 32 ∨ (Rect.block (s := S512x256) S512x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256.size a ≤ S256.size a
  hwx2_2 : ∀ i : grid2.Coords, EltTy.bits .f32 = 32 ∨ (Rect.block (s := S256) S256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x256.size a ≤ S20000x256.size a
  hwx2_3 : ∀ i : grid2.Coords, EltTy.bits .f32 = 32 ∨ (Rect.block (s := S20000x256) S2000x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S20000x256.size a
  hwx3_0 : ∀ i : grid3.Coords, EltTy.bits .f32 = 32 ∨ (Rect.block (s := S20000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256.size a ≤ S256.size a
  hwx3_2 : ∀ i : grid3.Coords, EltTy.bits .f32 = 32 ∨ (Rect.block (s := S256) S256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x256.size a ≤ S20000x256.size a
  hwx3_3 : ∀ i : grid3.Coords, EltTy.bits .f32 = 32 ∨ (Rect.block (s := S20000x256) S2000x256.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S100000x256.size a
  hwx4_0 : ∀ i : grid4.Coords, EltTy.bits .f32 = 32 ∨ (Rect.block (s := S100000x256) S2000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x1.size a ≤ S100000x1.size a
  hwx4_1 : ∀ i : grid4.Coords, EltTy.bits .f32 = 32 ∨ (Rect.block (s := S100000x1) S2000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x256.size a ≤ S100000x256.size a
  hwx4_2 : ∀ i : grid4.Coords, EltTy.bits .f32 = 32 ∨ (Rect.block (s := S100000x256) S2000x256.size (cc4_transform_2 i) (hinb4_2 i)).WholeWords (EltTy.packing .f32)

variable [Facts₀]

def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S100000x256_S300000x1_S300000x256_1_0_n_n_0_1_1256 : GatherDims S100000x256 S300000x1 S300000x256 where
  offsetDims := [1]
  collapsedSliceDims := [0]
  operandBatchingDims := []
  startIndicesBatchingDims := []
  startIndexMap := [0]
  indexVectorDim := 1
  sliceSizes := ![1, 256]
  wf := gather_S100000x256_S300000x1_S300000x256_1_0_n_n_0_1_1256_wf
def scatter_S20000x256_S300000x1_S300000x256_1_0_0_1 : ScatterDims S20000x256 S300000x1 S300000x256 where
  updateWindowDims := [1]
  insertedWindowDims := [0]
  scatterDimsToOperandDims := [0]
  indexVectorDim := 1
  wf := scatter_S20000x256_S300000x1_S300000x256_1_0_0_1_wf
def scatter_S20000_S300000x1_S300000_n_0_0_1 : ScatterDims S20000 S300000x1 S300000 where
  updateWindowDims := []
  insertedWindowDims := [0]
  scatterDimsToOperandDims := [0]
  indexVectorDim := 1
  wf := scatter_S20000_S300000x1_S300000_n_0_0_1_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S20000x256_S300000x1_S300000x256_1_0_n_n_0_1_1256 : GatherDims S20000x256 S300000x1 S300000x256 where
  offsetDims := [1]
  collapsedSliceDims := [0]
  operandBatchingDims := []
  startIndicesBatchingDims := []
  startIndexMap := [0]
  indexVectorDim := 1
  sliceSizes := ![1, 256]
  wf := gather_S20000x256_S300000x1_S300000x256_1_0_n_n_0_1_1256_wf
def scatter_S100000x256_S300000x1_S300000x256_1_0_0_1 : ScatterDims S100000x256 S300000x1 S300000x256 where
  updateWindowDims := [1]
  insertedWindowDims := [0]
  scatterDimsToOperandDims := [0]
  indexVectorDim := 1
  wf := scatter_S100000x256_S300000x1_S300000x256_1_0_0_1_wf
def scatter_S100000_S300000x1_S300000_n_0_0_1 : ScatterDims S100000 S300000x1 S300000 where
  updateWindowDims := []
  insertedWindowDims := [0]
  scatterDimsToOperandDims := [0]
  indexVectorDim := 1
  wf := scatter_S100000_S300000x1_S300000_n_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v9) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v15) S2000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S512x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v16) S2000x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v16) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v17) S2000x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v21) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v25) S2000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v26) S2000x256.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S100000x256 : Shape := ⟨2, ![100000, 256]⟩
abbrev S20000x256 : Shape := ⟨2, ![20000, 256]⟩
abbrev S2x300000 : Shape := ⟨2, ![2, 300000]⟩
abbrev S256x256 : Shape := ⟨2, ![256, 256]⟩
abbrev S256 : Shape := ⟨1, ![256]⟩
abbrev S512x256 : Shape := ⟨2, ![512, 256]⟩
abbrev S1x300000 : Shape := ⟨2, ![1, 300000]⟩
abbrev S300000 : Shape := ⟨1, ![300000]⟩
abbrev S1x256 : Shape := ⟨2, ![1, 256]⟩
abbrev S_ : Shape := ⟨0, ![]⟩
abbrev S300000x1 : Shape := ⟨2, ![300000, 1]⟩
abbrev S300000x256 : Shape := ⟨2, ![300000, 256]⟩
abbrev S20000 : Shape := ⟨1, ![20000]⟩
abbrev S20000x1 : Shape := ⟨2, ![20000, 1]⟩
abbrev S20000x512 : Shape := ⟨2, ![20000, 512]⟩
abbrev S100000 : Shape := ⟨1, ![100000]⟩
abbrev S100000x1 : Shape := ⟨2, ![100000, 1]⟩

abbrev nBuf : Space → Nat
  | .hbm => 82
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S20000x256, .f32⟩
  | .hbm, ⟨2, _⟩ => ⟨S2x300000, .i32⟩
  | .hbm, ⟨3, _⟩ => ⟨S256x256, .f32⟩
  | .hbm, ⟨4, _⟩ => ⟨S256, .f32⟩
  | .hbm, ⟨5, _⟩ => ⟨S512x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S1x300000, .i32⟩
  | .hbm, ⟨10, _⟩ => ⟨S300000, .i32⟩
  | .hbm, ⟨11, _⟩ => ⟨S1x300000, .i32⟩
  | .hbm, ⟨12, _⟩ => ⟨S300000, .i32⟩
  | .hbm, ⟨13, _⟩ => ⟨S100000x256, .f32⟩
  | .hbm, ⟨14, _⟩ => ⟨S1x256, .f32⟩
  | .hbm, ⟨15, _⟩ => ⟨S100000x256, .f32⟩
  | .hbm, ⟨16, _⟩ => ⟨S100000x256, .f32⟩
  | .hbm, ⟨17, _⟩ => ⟨S_, .i32⟩
  | .hbm, ⟨18, _⟩ => ⟨S300000, .i32⟩
  | .hbm, ⟨19, _⟩ => ⟨S300000, .i1⟩
  | .hbm, ⟨20, _⟩ => ⟨S_, .i32⟩
  | .hbm, ⟨21, _⟩ => ⟨S300000, .i32⟩
  | .hbm, ⟨22, _⟩ => ⟨S300000, .i32⟩
  | .hbm, ⟨23, _⟩ => ⟨S300000, .i32⟩
  | .hbm, ⟨24, _⟩ => ⟨S300000x1, .i32⟩
  | .hbm, ⟨25, _⟩ => ⟨S300000x256, .f32⟩
  | .hbm, ⟨26, _⟩ => ⟨S_, .f32⟩
  | .hbm, ⟨27, _⟩ => ⟨S20000x256, .f32⟩
  | .hbm, ⟨28, _⟩ => ⟨S300000x1, .i32⟩
  | .hbm, ⟨29, _⟩ => ⟨S20000x256, .f32⟩
  | .hbm, ⟨30, _⟩ => ⟨S_, .f32⟩
  | .hbm, ⟨31, _⟩ => ⟨S300000, .f32⟩
  | .hbm, ⟨32, _⟩ => ⟨S_, .f32⟩
  | .hbm, ⟨33, _⟩ => ⟨S20000, .f32⟩
  | .hbm, ⟨34, _⟩ => ⟨S300000x1, .i32⟩
  | .hbm, ⟨35, _⟩ => ⟨S20000, .f32⟩
  | .hbm, ⟨36, _⟩ => ⟨S_, .f32⟩
  | .hbm, ⟨37, _⟩ => ⟨S20000, .f32⟩
  | .hbm, ⟨38, _⟩ => ⟨S20000, .f32⟩
  | .hbm, ⟨39, _⟩ => ⟨S20000x1, .f32⟩
  | .hbm, ⟨40, _⟩ => ⟨S20000x256, .f32⟩
  | .hbm, ⟨41, _⟩ => ⟨S20000x256, .f32⟩
  | .hbm, ⟨42, _⟩ => ⟨S_, .f32⟩
  | .hbm, ⟨43, _⟩ => ⟨S20000x256, .f32⟩
  | .hbm, ⟨44, _⟩ => ⟨S20000x256, .f32⟩
  | .hbm, ⟨45, _⟩ => ⟨S20000x512, .f32⟩
  | .hbm, ⟨46, _⟩ => ⟨S20000x256, .f32⟩
  | .hbm, ⟨47, _⟩ => ⟨S1x256, .f32⟩
  | .hbm, ⟨48, _⟩ => ⟨S20000x256, .f32⟩
  | .hbm, ⟨49, _⟩ => ⟨S20000x256, .f32⟩
  | .hbm, ⟨50, _⟩ => ⟨S20000x256, .f32⟩
  | .hbm, ⟨51, _⟩ => ⟨S1x256, .f32⟩
  | .hbm, ⟨52, _⟩ => ⟨S20000x256, .f32⟩
  | .hbm, ⟨53, _⟩ => ⟨S20000x256, .f32⟩
  | .hbm, ⟨54, _⟩ => ⟨S_, .i32⟩
  | .hbm, ⟨55, _⟩ => ⟨S300000, .i32⟩
  | .hbm, ⟨56, _⟩ => ⟨S300000, .i1⟩
  | .hbm, ⟨57, _⟩ => ⟨S_, .i32⟩
  | .hbm, ⟨58, _⟩ => ⟨S300000, .i32⟩
  | .hbm, ⟨59, _⟩ => ⟨S300000, .i32⟩
  | .hbm, ⟨60, _⟩ => ⟨S300000, .i32⟩
  | .hbm, ⟨61, _⟩ => ⟨S300000x1, .i32⟩
  | .hbm, ⟨62, _⟩ => ⟨S300000x256, .f32⟩
  | .hbm, ⟨63, _⟩ => ⟨S_, .f32⟩
  | .hbm, ⟨64, _⟩ => ⟨S100000x256, .f32⟩
  | .hbm, ⟨65, _⟩ => ⟨S300000x1, .i32⟩
  | .hbm, ⟨66, _⟩ => ⟨S100000x256, .f32⟩
  | .hbm, ⟨67, _⟩ => ⟨S_, .f32⟩
  | .hbm, ⟨68, _⟩ => ⟨S300000, .f32⟩
  | .hbm, ⟨69, _⟩ => ⟨S_, .f32⟩
  | .hbm, ⟨70, _⟩ => ⟨S100000, .f32⟩
  | .hbm, ⟨71, _⟩ => ⟨S300000x1, .i32⟩
  | .hbm, ⟨72, _⟩ => ⟨S100000, .f32⟩
  | .hbm, ⟨73, _⟩ => ⟨S_, .f32⟩
  | .hbm, ⟨74, _⟩ => ⟨S100000, .f32⟩
  | .hbm, ⟨75, _⟩ => ⟨S100000, .f32⟩
  | .hbm, ⟨76, _⟩ => ⟨S100000x1, .f32⟩
  | .hbm, ⟨77, _⟩ => ⟨S100000x256, .f32⟩
  | .hbm, ⟨78, _⟩ => ⟨S100000x256, .f32⟩
  | .hbm, ⟨79, _⟩ => ⟨S_, .f32⟩
  | .hbm, ⟨80, _⟩ => ⟨S100000x256, .f32⟩
  | .hbm, ⟨81, _⟩ => ⟨S100000x256, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_call0_cst : Ref sig .tc := ⟨.hbm, 42, rfl⟩
abbrev main_call0_v0 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_4 : Ref sig .tc := ⟨.hbm, 54, rfl⟩
abbrev main_v37 : Ref sig .tc := ⟨.hbm, 55, rfl⟩
abbrev main_v38 : Ref sig .tc := ⟨.hbm, 56, rfl⟩
abbrev main_c_5 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_6 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_7 : Ref sig .tc := ⟨.hbm, 67, rfl⟩
abbrev main_v47 : Ref sig .tc := ⟨.hbm, 68, rfl⟩
abbrev main_cst_8 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_9 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_call1_cst : Ref sig .tc := ⟨.hbm, 79, rfl⟩
abbrev main_call1_v0 : Ref sig .tc := ⟨.hbm, 80, rfl⟩
abbrev main_v56 : Ref sig .tc := ⟨.hbm, 81, rfl⟩

abbrev nD : Nat := 1
abbrev τ : Topo := Topo.v7x

variable {F : FTy → Type} [FloatOps F]

class Facts₀ : Prop where
  slices_S2x300000_S1x300000_0_0 : S2x300000.Slices ![0, 0] S1x300000
  shapeCasts_S1x300000_S300000 : S1x300000.ShapeCasts S300000
  slices_S2x300000_S1x300000_1_0 : S2x300000.Slices ![1, 0] S1x300000
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S300000 : S_.BroadcastsInDim S300000 (![] : Fin 0 → Fin S300000.rank)
  bcast_S300000_S300000x1_0 : S300000.BroadcastsInDim S300000x1 (![0] : Fin 1 → Fin S300000x1.rank)
  bcast_S_S20000x256 : S_.BroadcastsInDim S20000x256 (![] : Fin 0 → Fin S20000x256.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x256_0_1 : S20000x1.BroadcastsInDim S20000x256 (![0, 1] : Fin 2 → Fin S20000x256.rank)
  concatenates_S20000x256_S20000x256_S20000x512_d1 : Shape.Concatenates [S20000x256, S20000x256] S20000x512 1
  bcast_S1x256_S20000x256_0_1 : S1x256.BroadcastsInDim S20000x256 (![0, 1] : Fin 2 → Fin S20000x256.rank)
  bcast_S_S100000x256 : S_.BroadcastsInDim S100000x256 (![] : Fin 0 → Fin S100000x256.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  dot_S100000x256_S256x256_S100000x256_1_0_0_1_n_n_wf : DotDims.WF S100000x256 S256x256 S100000x256 [1] [0] [0] [1] [] []
  gather_S100000x256_S300000x1_S300000x256_1_0_n_n_0_1_1256_wf : GatherDims.WF S100000x256 S300000x1 S300000x256 [1] [0] [] [0] [] 1 ![1, 256]
  scatter_S20000x256_S300000x1_S300000x256_1_0_0_1_wf : ScatterDims.WF S20000x256 S300000x1 S300000x256 [1] [0] [0] 1
  scatter_S20000_S300000x1_S300000_n_0_0_1_wf : ScatterDims.WF S20000 S300000x1 S300000 [] [0] [0] 1
  dot_S20000x512_S512x256_S20000x256_1_0_0_1_n_n_wf : DotDims.WF S20000x512 S512x256 S20000x256 [1] [0] [0] [1] [] []
  dot_S20000x256_S256x256_S20000x256_1_0_0_1_n_n_wf : DotDims.WF S20000x256 S256x256 S20000x256 [1] [0] [0] [1] [] []
  gather_S20000x256_S300000x1_S300000x256_1_0_n_n_0_1_1256_wf : GatherDims.WF S20000x256 S300000x1 S300000x256 [1] [0] [] [0] [] 1 ![1, 256]
  scatter_S100000x256_S300000x1_S300000x256_1_0_0_1_wf : ScatterDims.WF S100000x256 S300000x1 S300000x256 [1] [0] [0] 1
  scatter_S100000_S300000x1_S300000_n_0_0_1_wf : ScatterDims.WF S100000 S300000x1 S300000 [] [0] [0] 1

variable [Facts₀]

def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def gather_S100000x256_S300000x1_S300000x256_1_0_n_n_0_1_1256 : GatherDims S100000x256 S300000x1 S300000x256 where
  offsetDims := [1]
  collapsedSliceDims := [0]
  operandBatchingDims := []
  startIndicesBatchingDims := []
  startIndexMap := [0]
  indexVectorDim := 1
  sliceSizes := ![1, 256]
  wf := gather_S100000x256_S300000x1_S300000x256_1_0_n_n_0_1_1256_wf
def scatter_S20000x256_S300000x1_S300000x256_1_0_0_1 : ScatterDims S20000x256 S300000x1 S300000x256 where
  updateWindowDims := [1]
  insertedWindowDims := [0]
  scatterDimsToOperandDims := [0]
  indexVectorDim := 1
  wf := scatter_S20000x256_S300000x1_S300000x256_1_0_0_1_wf
def scatter_S20000_S300000x1_S300000_n_0_0_1 : ScatterDims S20000 S300000x1 S300000 where
  updateWindowDims := []
  insertedWindowDims := [0]
  scatterDimsToOperandDims := [0]
  indexVectorDim := 1
  wf := scatter_S20000_S300000x1_S300000_n_0_0_1_wf
def dot_S20000x512_S512x256_S20000x256_1_0_0_1_n_n : DotDims S20000x512 S512x256 S20000x256 where
  lhsContracting := [1]
  rhsContracting := [0]
  lhsNonContracting := [0]
  rhsNonContracting := [1]
  lhsBatch := []
  rhsBatch := []
  wf := dot_S20000x512_S512x256_S20000x256_1_0_0_1_n_n_wf
def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf
def gather_S20000x256_S300000x1_S300000x256_1_0_n_n_0_1_1256 : GatherDims S20000x256 S300000x1 S300000x256 where
  offsetDims := [1]
  collapsedSliceDims := [0]
  operandBatchingDims := []
  startIndicesBatchingDims := []
  startIndexMap := [0]
  indexVectorDim := 1
  sliceSizes := ![1, 256]
  wf := gather_S20000x256_S300000x1_S300000x256_1_0_n_n_0_1_1256_wf
def scatter_S100000x256_S300000x1_S300000x256_1_0_0_1 : ScatterDims S100000x256 S300000x1 S300000x256 where
  updateWindowDims := [1]
  insertedWindowDims := [0]
  scatterDimsToOperandDims := [0]
  indexVectorDim := 1
  wf := scatter_S100000x256_S300000x1_S300000x256_1_0_0_1_wf
def scatter_S100000_S300000x1_S300000_n_0_0_1 : ScatterDims S100000 S300000x1 S300000 where
  updateWindowDims := []
  insertedWindowDims := [0]
  scatterDimsToOperandDims := [0]
  indexVectorDim := 1
  wf := scatter_S100000_S300000x1_S300000_n_0_0_1_wf

class Facts : Prop extends Facts₀ where

variable [Facts]
-- ==== Proof.KFold.lean ====
/-
  The kernel program's buffers, boundary by boundary. @main is eleven segments: stretches of host operations and five
  kernel regions. A host stretch changes only the buffers its operations write, each to its operation's value of the
  buffers read; a region changes only its own arrays, each output to what its write-backs leave and each input to itself.
  So every buffer a later segment reads is found by walking back to the segment that wrote it. This module does the
  walking: the two rows of the edge list, the gathered rows, the segment sums and counts, the joined array, and the
  five regions' input arrays, each as a term of earlier buffers, at any float instance.
-/
import proofs.«422035_j30425548324932_1_alg».proof.Proof.Gen.KernelIdeal.Frame
import Idealize.ShloMosaic.Lib.StableHlo.Run

set_option maxRecDepth 16384

noncomputable section

open Idealize.ShloMosaic Idealize.ShloMosaic.TcCoe Idealize.SL.Sem Idealize.ShloMosaic.StableHlo
open Idealize.ShloMosaic.Pipeline (Dat)

namespace Cert.KernelIdeal.Hand

open Cert.KernelIdeal Cert.KernelIdeal.Gen

variable {F : FTy → Type} [FloatOps F]
variable (m : (ℓ : Loc nD τ sig) → Buf (Elt F) ℓ) (ρ : Dev nD → PrngReg)

/-- A buffer that no operation of a host stretch writes holds after the stretch what it held before. -/
local macro "kept_by " ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-! ## The edge list's rows -/

/-- Row 0 of the edge list (node ids) and row 1 (hyperedge ids), as the program slices them. -/
abbrev srcOf (a2 : IVec S2x300000 32) : IVec S300000 32 :=
  shapeCast S300000 (extractStridedSlice S1x300000 ![0, 0] a2 slices_S2x300000_S1x300000_0_0) shapeCasts_S1x300000_S300000
abbrev dstOf (a2 : IVec S2x300000 32) : IVec S300000 32 :=
  shapeCast S300000 (extractStridedSlice S1x300000 ![1, 0] a2 slices_S2x300000_S1x300000_1_0) shapeCasts_S1x300000_S300000

theorem W1_src (c : Dev nD) : W1 m ρ c (Proc.devRef .tc main_v1) = srcOf (m ((c : Thread nD τ).loc main_arg2)) := by
  show StableHlo.after hostOps0 (W0 m ρ c) (Proc.devRef .tc main_v1) = _
  after_results <;> rfl

theorem W1_dst (c : Dev nD) : W1 m ρ c (Proc.devRef .tc main_v3) = dstOf (m ((c : Thread nD τ).loc main_arg2)) := by
  show StableHlo.after hostOps0 (W0 m ρ c) (Proc.devRef .tc main_v3) = _
  after_results <;> rfl

/-! ## The shapes of the values between the regions -/

/-- The index column a take of an `N`-row table reads: a negative id moved up by `N`, any other id itself. -/
abbrev idxCol (N : BitVec 32) (ids : IVec S300000 32) : IVec S300000x1 32 :=
  broadcastInDim S300000x1 ![0] bcast_S300000_S300000x1_0
    (select (cmpi .slt ids (broadcastInDim S300000 ![] bcast_S_S300000 (constantI S_ 32 0#32)))
      (addi ids (broadcastInDim S300000 ![] bcast_S_S300000 (constantI S_ 32 N))) ids)

/-- The take's row mask: lane `(e, q)` is one iff `0 ≤ idx e ≤ hi`. -/
abbrev rowMask (hi : BitVec 32) (idx : IVec S300000x1 32) : IVec S300000x256 1 :=
  broadcastInDim S300000x256 ![0] bcast_S300000_S300000x256_0
    (Host.reduce IntOp.andi
      (andi (cmpi .sge idx (broadcastInDim S300000x1 ![] bcast_S_S300000x1 (constantI S_ 32 0#32)))
            (cmpi .sle idx (broadcastInDim S300000x1 ![0, 1] bcast_S1x1_S300000x1_0_1 (broadcastInDim S1x1 ![1] bcast_S1_S1x1_1 (constantI S1 32 hi)))))
      (constantI S_ 1 1#1) reducesTo_S300000x1_S300000_d1 h_S_)

/-- The pattern a masked-out row is filled with. -/
abbrev fillRows : FVec F S300000x256 .f32 := broadcastInDim S300000x256 ![] bcast_S_S300000x256 (constant S_ .f32 0x7FC00000#32)

/-- `jnp.take` of the 100000-row table at the node ids: the gathered rows where the id is in range, the fill elsewhere. -/
abbrev takeV (h : FVec F S100000x256 .f32) (src : IVec S300000 32) : FVec F S300000x256 .f32 :=
  select (rowMask 99999#32 (idxCol 100000#32 src))
    (Host.gather gather_S100000x256_S300000x1_S300000x256_1_0_n_n_0_1_1256 h (idxCol 100000#32 src)) fillRows

/-- `jnp.take` of the 20000-row table at the hyperedge ids. -/
abbrev takeE (g : FVec F S20000x256 .f32) (dst : IVec S300000 32) : FVec F S300000x256 .f32 :=
  select (rowMask 19999#32 (idxCol 20000#32 dst))
    (Host.gather gather_S20000x256_S300000x1_S300000x256_1_0_n_n_0_1_1256 g (idxCol 20000#32 dst)) fillRows

/-- One per edge. -/
abbrev onesE : FVec F S300000 .f32 := broadcastInDim S300000 ![] bcast_S_S300000 (constant S_ .f32 0x3F800000#32)

/-- The edges' rows summed into their hyperedge's row, and the edges counted per hyperedge. -/
abbrev sumE (dst : IVec S300000 32) (rows : FVec F S300000x256 .f32) : FVec F S20000x256 .f32 :=
  Host.scatterAdd scatter_S20000x256_S300000x1_S300000x256_1_0_0_1
    (broadcastInDim S20000x256 ![] bcast_S_S20000x256 (constant S_ .f32 0x00000000#32))
    (broadcastInDim S300000x1 ![0] bcast_S300000_S300000x1_0 dst) rows
abbrev cntE (dst : IVec S300000 32) (ones : FVec F S300000 .f32) : FVec F S20000 .f32 :=
  Host.scatterAdd scatter_S20000_S300000x1_S300000_n_0_0_1
    (broadcastInDim S20000 ![] bcast_S_S20000 (constant S_ .f32 0x00000000#32))
    (broadcastInDim S300000x1 ![0] bcast_S300000_S300000x1_0 dst) ones

/-- The edges' rows summed into their node's row, and the edges counted per node. -/
abbrev sumV (src : IVec S300000 32) (rows : FVec F S300000x256 .f32) : FVec F S100000x256 .f32 :=
  Host.scatterAdd scatter_S100000x256_S300000x1_S300000x256_1_0_0_1
    (broadcastInDim S100000x256 ![] bcast_S_S100000x256 (constant S_ .f32 0x00000000#32))
    (broadcastInDim S300000x1 ![0] bcast_S300000_S300000x1_0 src) rows
abbrev cntV (src : IVec S300000 32) (ones : FVec F S300000 .f32) : FVec F S100000 .f32 :=
  Host.scatterAdd scatter_S100000_S300000x1_S300000_n_0_0_1
    (broadcastInDim S100000 ![] bcast_S_S100000 (constant S_ .f32 0x00000000#32))
    (broadcastInDim S300000x1 ![0] bcast_S300000_S300000x1_0 src) ones

/-! ## What each segment keeps -/

theorem keep01 (c : Dev nD) (b : Ref sig .tc) (hb : b ∈ [main_arg0, main_arg1, main_arg3, main_arg4, main_arg5, main_arg6, main_arg7, main_arg8]) :
    W1 m ρ c (Proc.devRef .tc b) = m ((c : Thread nD τ).loc b) := by
  show StableHlo.after hostOps0 (W0 m ρ c) (Proc.devRef .tc b) = W0 m ρ c (Proc.devRef .tc b)
  simp only [List.mem_cons, List.not_mem_nil, or_false] at hb
  rcases hb with rfl | rfl | rfl | rfl | rfl | rfl | rfl | rfl <;> kept_by hostOps0

theorem keep12 (c : Dev nD) (b : Ref sig .tc) (hb : b ∈ [main_v1, main_v3, main_arg1, main_arg5, main_arg6, main_arg7, main_arg8]) :
    W2 m ρ c (Proc.devRef .tc b) = W1 m ρ c (Proc.devRef .tc b) := by
  simp only [List.mem_cons, List.not_mem_nil, or_false] at hb
  rcases hb with rfl | rfl | rfl | rfl | rfl | rfl | rfl <;> exact W2_of_ne m ρ c _ (by decide)

theorem keep23 (c : Dev nD) (b : Ref sig .tc) (hb : b ∈ [main_v1, main_v3, main_arg1, main_arg5, main_arg6, main_arg7, main_arg8]) :
    W3 m ρ c (Proc.devRef .tc b) = W2 m ρ c (Proc.devRef .tc b) := by
  show StableHlo.after hostOps1 (W2 m ρ c) (Proc.devRef .tc b) = _
  simp only [List.mem_cons, List.not_mem_nil, or_false] at hb
  rcases hb with rfl | rfl | rfl | rfl | rfl | rfl | rfl <;> kept_by hostOps1

theorem keep34 (c : Dev nD) (b : Ref sig .tc) (hb : b ∈ [main_v1, main_v3, main_arg1, main_arg5, main_arg6, main_arg7, main_arg8]) :
    W4 m ρ c (Proc.devRef .tc b) = W3 m ρ c (Proc.devRef .tc b) := by
  show StableHlo.after hostOps1_1 (W3 m ρ c) (Proc.devRef .tc b) = _
  simp only [List.mem_cons, List.not_mem_nil, or_false] at hb
  rcases hb with rfl | rfl | rfl | rfl | rfl | rfl | rfl <;> kept_by hostOps1_1

theorem keep45 (c : Dev nD) (b : Ref sig .tc) (hb : b ∈ [main_v1, main_v3, main_v6, main_arg1, main_arg5, main_arg6, main_arg7, main_arg8]) :
    W5 m ρ c (Proc.devRef .tc b) = W4 m ρ c (Proc.devRef .tc b) := by
  simp only [List.mem_cons, List.not_mem_nil, or_false] at hb
  rcases hb with rfl | rfl | rfl | rfl | rfl | rfl | rfl | rfl <;> exact W5_of_ne m ρ c _ (by decide)

theorem keep56 (c : Dev nD) (b : Ref sig .tc) (hb : b ∈ [main_v1, main_v3, main_v6, main_arg5, main_arg6, main_arg7, main_arg8]) :
    W6 m ρ c (Proc.devRef .tc b) = W5 m ρ c (Proc.devRef .tc b) := by
  show StableHlo.after hostOps2 (W5 m ρ c) (Proc.devRef .tc b) = _
  simp only [List.mem_cons, List.not_mem_nil, or_false] at hb
  rcases hb with rfl | rfl | rfl | rfl | rfl | rfl | rfl <;> kept_by hostOps2

theorem keep67 (c : Dev nD) (b : Ref sig .tc) (hb : b ∈ [main_v1, main_v3, main_v6, main_arg7, main_arg8]) :
    W7 m ρ c (Proc.devRef .tc b) = W6 m ρ c (Proc.devRef .tc b) := by
  simp only [List.mem_cons, List.not_mem_nil, or_false] at hb
  rcases hb with rfl | rfl | rfl | rfl | rfl <;> exact W7_of_ne m ρ c _ (by decide)

theorem keep78 (c : Dev nD) (b : Ref sig .tc) (hb : b ∈ [main_v1, main_v3, main_v6]) :
    W8 m ρ c (Proc.devRef .tc b) = W7 m ρ c (Proc.devRef .tc b) := by
  simp only [List.mem_cons, List.not_mem_nil, or_false] at hb
  rcases hb with rfl | rfl | rfl <;> exact W8_of_ne m ρ c _ (by decide)

theorem keep89 (c : Dev nD) (b : Ref sig .tc) (hb : b ∈ [main_v1, main_v6, main_v16]) :
    W9 m ρ c (Proc.devRef .tc b) = W8 m ρ c (Proc.devRef .tc b) := by
  show StableHlo.after hostOps4 (W8 m ρ c) (Proc.devRef .tc b) = _
  simp only [List.mem_cons, List.not_mem_nil, or_false] at hb
  rcases hb with rfl | rfl | rfl <;> kept_by hostOps4

theorem keep910 (c : Dev nD) : W10 m ρ c (Proc.devRef .tc main_v16) = W9 m ρ c (Proc.devRef .tc main_v16) := by
  show StableHlo.after hostOps4_1 (W9 m ρ c) (Proc.devRef .tc main_v16) = _
  kept_by hostOps4_1

theorem keep1011 (c : Dev nD) : W11 m ρ c (Proc.devRef .tc main_v16) = W10 m ρ c (Proc.devRef .tc main_v16) :=
  W11_of_ne m ρ c main_v16 (by decide)

/-- Region 3 reads the fused features through an input window: the array holds after it what it held before. -/
theorem keep78_v16 (c : Dev nD) : W8 m ρ c (Proc.devRef .tc main_v16) = W7 m ρ c (Proc.devRef .tc main_v16) :=
  (W8_arr m ρ c 0).trans (((dat3 (V7 m ρ) c).arrAt_in 0 rfl _).trans (A_eq3 (V7 m ρ) c 0))

/-! ## What each segment writes -/

/-- The first dense layer's array: what region 0's write-backs leave. -/
theorem W2_h (c : Dev nD) : W2 m ρ c (Proc.devRef .tc main_v4) = (dat0 (V1 m ρ) c).arrAt 3 cfg0.N := W2_arr m ρ c 3

set_option maxHeartbeats 8000000 in
/-- The gathered node rows. -/
theorem W3_take (c : Dev nD) :
    W3 m ρ c (Proc.devRef .tc main_v5) = takeV (W2 m ρ c (Proc.devRef .tc main_v4)) (W2 m ρ c (Proc.devRef .tc main_v1)) := by
  show StableHlo.after hostOps1 (W2 m ρ c) (Proc.devRef .tc main_v5) = _
  generalize W2 m ρ c = X
  after_results_simp
  dsimp only [TRef.toBuf, TRef.ofBuf, cast_eq] <;> rfl

theorem W4_sum (c : Dev nD) :
    W4 m ρ c (Proc.devRef .tc main_v9) = sumE (W3 m ρ c (Proc.devRef .tc main_v3)) (W3 m ρ c (Proc.devRef .tc main_v5)) := by
  show StableHlo.after hostOps1_1 (W3 m ρ c) (Proc.devRef .tc main_v9) = _
  generalize W3 m ρ c = X
  after_results <;> rfl

theorem W4_cnt (c : Dev nD) :
    W4 m ρ c (Proc.devRef .tc main_v13) = shapeCast S20000x1 (cntE (W3 m ρ c (Proc.devRef .tc main_v3)) onesE) shapeCasts_S20000_S20000x1 := by
  show StableHlo.after hostOps1_1 (W3 m ρ c) (Proc.devRef .tc main_v13) = _
  generalize W3 m ρ c = X
  after_results <;> rfl

theorem W4_ones (c : Dev nD) : W4 m ρ c (Proc.devRef .tc main_v6) = onesE := by
  show StableHlo.after hostOps1_1 (W3 m ρ c) (Proc.devRef .tc main_v6) = _
  generalize W3 m ρ c = X
  after_results <;> rfl

/-- The first hop's means: what region 1's write-backs leave. -/
theorem W5_e (c : Dev nD) : W5 m ρ c (Proc.devRef .tc main_v14) = (dat1 (V4 m ρ) c).arrAt 2 cfg1.N := W5_arr m ρ c 2

theorem W6_cat (c : Dev nD) :
    W6 m ρ c (Proc.devRef .tc main_v15)
      = concatenate S20000x512 1 [⟨S20000x256, W5 m ρ c (Proc.devRef .tc main_arg1)⟩, ⟨S20000x256, W5 m ρ c (Proc.devRef .tc main_v14)⟩]
          concatenates_S20000x256_S20000x256_S20000x512_d1 := by
  show StableHlo.after hostOps2 (W5 m ρ c) (Proc.devRef .tc main_v15) = _
  generalize W5 m ρ c = X
  after_results <;> rfl

/-- The fused hyperedge features: what region 2's write-backs leave. -/
theorem W7_out (c : Dev nD) : W7 m ρ c (Proc.devRef .tc main_v16) = (dat2 (V6 m ρ) c).arrAt 3 cfg2.N := W7_arr m ρ c 3

/-- The second dense layer's array: what region 3's write-backs leave. -/
theorem W8_g (c : Dev nD) : W8 m ρ c (Proc.devRef .tc main_v17) = (dat3 (V7 m ρ) c).arrAt 3 cfg3.N := W8_arr m ρ c 3

set_option maxHeartbeats 8000000 in
/-- The gathered hyperedge rows. -/
theorem W9_take (c : Dev nD) :
    W9 m ρ c (Proc.devRef .tc main_v18) = takeE (W8 m ρ c (Proc.devRef .tc main_v17)) (W8 m ρ c (Proc.devRef .tc main_v3)) := by
  show StableHlo.after hostOps4 (W8 m ρ c) (Proc.devRef .tc main_v18) = _
  generalize W8 m ρ c = X
  after_results_simp
  dsimp only [TRef.toBuf, TRef.ofBuf, cast_eq] <;> rfl

theorem W10_sum (c : Dev nD) :
    W10 m ρ c (Proc.devRef .tc main_v21) = sumV (W9 m ρ c (Proc.devRef .tc main_v1)) (W9 m ρ c (Proc.devRef .tc main_v18)) := by
  show StableHlo.after hostOps4_1 (W9 m ρ c) (Proc.devRef .tc main_v21) = _
  generalize W9 m ρ c = X
  after_results <;> rfl

theorem W10_cnt (c : Dev nD) :
    W10 m ρ c (Proc.devRef .tc main_v25)
      = shapeCast S100000x1 (cntV (W9 m ρ c (Proc.devRef .tc main_v1)) (W9 m ρ c (Proc.devRef .tc main_v6))) shapeCasts_S100000_S100000x1 := by
  show StableHlo.after hostOps4_1 (W9 m ρ c) (Proc.devRef .tc main_v25) = _
  generalize W9 m ρ c = X
  after_results <;> rfl

/-- The new node features: what region 4's write-backs leave. -/
theorem W11_out (c : Dev nD) : W11 m ρ c (Proc.devRef .tc main_v26) = (dat4 (V10 m ρ) c).arrAt 2 cfg4.N := W11_arr m ρ c 2

end Cert.KernelIdeal.Hand

end
-- ==== Proof.KTake.lean ====
/-
  `jnp.take` with in-range indices is a plain gather. The kernel's program gathers row `idx e` of the table for every edge
  `e` and then replaces the row by a fill pattern unless `0 ≤ idx e ≤ N - 1`, where `idx e` is the id `w` itself when
  `w ≥ 0` and `w + N` when `w < 0`. For a signed word `w` with `0 ≤ w < N` the first case applies, `idx e = w`, and both
  tests hold, so the mask is one on every lane and the select returns the gathered rows: no fill is ever read.
-/
import proofs.«422035_j30425548324932_1_alg».proof.KernelIdeal
import proofs.«422035_j30425548324932_1_alg».proof.Proof.Gen.KernelIdeal
import Idealize.ShloMosaic.Lib.ReduceAll
import Idealize.ShloMosaic.Lib.StableHlo.Predicate
import Idealize.ShloMosaic.Lib.ValueIdx

noncomputable section

open Idealize.ShloMosaic

namespace Cert.KernelIdeal.Hand

open Cert.KernelIdeal Cert.KernelIdeal.Gen

variable {F : FTy → Type} [FloatOps F]

/-- The index column the first gather reads: a negative id moved up by the 100000 rows, any other id itself. -/
abbrev takeIdxV (src : IVec S300000 32) : IVec S300000x1 32 :=
  broadcastInDim S300000x1 ![0] bcast_S300000_S300000x1_0
    (select (cmpi .slt src (broadcastInDim S300000 ![] bcast_S_S300000 (constantI S_ 32 0#32)))
      (addi src (broadcastInDim S300000 ![] bcast_S_S300000 (constantI S_ 32 100000#32))) src)

/-- The index column the second gather reads: a negative id moved up by the 20000 rows, any other id itself. -/
abbrev takeIdxE (dst : IVec S300000 32) : IVec S300000x1 32 :=
  broadcastInDim S300000x1 ![0] bcast_S300000_S300000x1_0
    (select (cmpi .slt dst (broadcastInDim S300000 ![] bcast_S_S300000 (constantI S_ 32 0#32)))
      (addi dst (broadcastInDim S300000 ![] bcast_S_S300000 (constantI S_ 32 20000#32))) dst)

namespace Take

/-- A signed word `w` with `0 ≤ w < n`, where `n = m + 1` as signed numbers, is not negative and is at most `m`. -/
theorem word_in_range (w n m : BitVec 32) (hnm : n.toInt = m.toInt + 1)
    (h0 : IntOp.cmpi .sge w 0#32 = 1#1) (h1 : IntOp.cmpi .slt w n = 1#1) :
    ¬ IntOp.cmpi .slt w 0#32 = 1#1 ∧ IntOp.cmpi .sle w m = 1#1 := by
  have hz : (0#32 : BitVec 32).toInt = 0 := by decide
  unfold IntOp.cmpi at h0 h1 ⊢
  simp only [BitVec.sle, BitVec.slt, Idealize.ShloMosaic.StableHlo.Predicate.ofBool_eq_one_iff, decide_eq_true_eq, hz] at h0 h1 ⊢
  omega

/-- A left fold by `and` from 1 over words that are all 1 is 1. -/
theorem foldl_andi_ones {ι : Type} (x : ι → BitVec 1) (hx : ∀ i, x i = 1#1) :
    ∀ l : List ι, l.foldl (fun r i => IntOp.andi r (x i)) 1#1 = 1#1
  | [] => rfl
  | a :: l => by
    rw [List.foldl_cons, hx a, show IntOp.andi 1#1 1#1 = 1#1 from by decide]
    exact foldl_andi_ones x hx l

/-- A reduce by `and` from 1 of an array whose every entry is 1 is 1 at every result index. -/
theorem reduce_andi_ones {s t u : Shape} {axes : List (Fin s.rank)} (x : s.Idx → BitVec 1) (hx : ∀ i, x i = 1#1)
    (init : u.Idx → BitVec 1) (h : s.ReducesTo axes t) (hu : 0 < u.numel) (hinit : init (Shape.Idx.first hu) = 1#1)
    (j : t.Idx) : Host.reduce IntOp.andi x init h hu j = 1#1 := by
  rw [Host.reduce_eq_foldl, hinit]
  exact foldl_andi_ones x hx _

/-- A vector laid out as a one-column array reads, at row `p`, the vector at `p`. -/
theorem col_read {α : Type} (x : S300000.Idx → α) (j : S300000x1.Idx) :
    broadcastInDim S300000x1 ![0] bcast_S300000_S300000x1_0 x j = x (ValueIdx.ix1 (j 0)) := by
  unfold broadcastInDim
  refine congrArg x (funext fun a => ?_)
  match a with
  | ⟨0, _⟩ => exact dif_neg (show ¬ (300000 : Nat) = 1 by decide)

/-- The index column a take reads, for a table of `n` rows: a negative id moved up by `n`, any other id itself. -/
abbrev takeIdx (n : BitVec 32) (src : IVec S300000 32) : IVec S300000x1 32 :=
  broadcastInDim S300000x1 ![0] bcast_S300000_S300000x1_0
    (select (cmpi .slt src (broadcastInDim S300000 ![] bcast_S_S300000 (constantI S_ 32 0#32)))
      (addi src (broadcastInDim S300000 ![] bcast_S_S300000 (constantI S_ 32 n))) src)

/-- Both range tests hold at every entry of the index column: with `0 ≤ w < n` the entry is `w` itself, which is
    neither negative nor above `m = n - 1`. -/
theorem tests_one (n m : BitVec 32) (hnm : n.toInt = m.toInt + 1) (src : IVec S300000 32)
    (hsrc : ∀ e : S300000.Idx, IntOp.cmpi .sge (src e) 0#32 = 1#1 ∧ IntOp.cmpi .slt (src e) n = 1#1)
    (j : S300000x1.Idx) :
    andi (cmpi .sge (takeIdx n src) (broadcastInDim S300000x1 ![] bcast_S_S300000x1 (constantI S_ 32 0#32)))
         (cmpi .sle (takeIdx n src) (broadcastInDim S300000x1 ![0, 1] bcast_S1x1_S300000x1_0_1
            (broadcastInDim S1x1 ![1] bcast_S1_S1x1_1 (constantI S1 32 m)))) j = 1#1 := by
  -- the entry of the id vector this lane reads
  have hread : takeIdx n src j
      = Scalar.select (IntOp.cmpi .slt (src (ValueIdx.ix1 (j 0))) 0#32) (IntOp.addi (src (ValueIdx.ix1 (j 0))) n)
          (src (ValueIdx.ix1 (j 0))) :=
    col_read _ j
  obtain ⟨h0, h1⟩ := hsrc (ValueIdx.ix1 (j 0))
  obtain ⟨hneg, hle⟩ := word_in_range _ n m hnm h0 h1
  have hw : takeIdx n src j = src (ValueIdx.ix1 (j 0)) := by rw [hread]; exact if_neg hneg
  show IntOp.andi (IntOp.cmpi .sge (takeIdx n src j) 0#32) (IntOp.cmpi .sle (takeIdx n src j) m) = 1#1
  rw [hw, h0, hle]
  decide

/-- The lane mask of a take whose ids are all in range is one everywhere. -/
theorem mask_one (n m : BitVec 32) (hnm : n.toInt = m.toInt + 1) (src : IVec S300000 32)
    (hsrc : ∀ e : S300000.Idx, IntOp.cmpi .sge (src e) 0#32 = 1#1 ∧ IntOp.cmpi .slt (src e) n = 1#1)
    (i : S300000x256.Idx) :
    broadcastInDim S300000x256 ![0] bcast_S300000_S300000x256_0
        (Host.reduce IntOp.andi
          (andi (cmpi .sge (takeIdx n src) (broadcastInDim S300000x1 ![] bcast_S_S300000x1 (constantI S_ 32 0#32)))
                (cmpi .sle (takeIdx n src) (broadcastInDim S300000x1 ![0, 1] bcast_S1x1_S300000x1_0_1 (broadcastInDim S1x1 ![1] bcast_S1_S1x1_1 (constantI S1 32 m)))))
          (constantI S_ 1 1#1) reducesTo_S300000x1_S300000_d1 h_S_) i = 1#1 :=
  reduce_andi_ones _ (tests_one n m hnm src hsrc) _ _ _ rfl _

/-- The two row counts, as signed words, are one more than the bounds the program tests against. -/
theorem lit_V : (100000#32 : BitVec 32).toInt = (99999#32 : BitVec 32).toInt + 1 := by decide
theorem lit_E : (20000#32 : BitVec 32).toInt = (19999#32 : BitVec 32).toInt + 1 := by decide

end Take

/-- With every node id in `[0, 100000)` the masked take of the 100000-row table is the gather itself. -/
theorem take_V (h : FVec F S100000x256 .f32) (src : IVec S300000 32)
    (hsrc : ∀ e : S300000.Idx, IntOp.cmpi .sge (src e) 0#32 = 1#1 ∧ IntOp.cmpi .slt (src e) 100000#32 = 1#1) :
    select (broadcastInDim S300000x256 ![0] bcast_S300000_S300000x256_0
        (Host.reduce IntOp.andi
          (andi (cmpi .sge (takeIdxV src) (broadcastInDim S300000x1 ![] bcast_S_S300000x1 (constantI S_ 32 0#32)))
                (cmpi .sle (takeIdxV src) (broadcastInDim S300000x1 ![0, 1] bcast_S1x1_S300000x1_0_1 (broadcastInDim S1x1 ![1] bcast_S1_S1x1_1 (constantI S1 32 99999#32)))))
          (constantI S_ 1 1#1) reducesTo_S300000x1_S300000_d1 h_S_))
      (Host.gather gather_S100000x256_S300000x1_S300000x256_1_0_n_n_0_1_1256 h (takeIdxV src))
      (broadcastInDim S300000x256 ![] bcast_S_S300000x256 (constant S_ .f32 0x7FC00000#32))
    = Host.gather gather_S100000x256_S300000x1_S300000x256_1_0_n_n_0_1_1256 h (takeIdxV src) := by
  funext i
  have hm := Take.mask_one 100000#32 99999#32 Take.lit_V src hsrc i
  show Scalar.select _ _ _ = _
  rw [hm]
  exact if_pos rfl

/-- With every hyperedge id in `[0, 20000)` the masked take of the 20000-row table is the gather itself. -/
theorem take_E (g : FVec F S20000x256 .f32) (dst : IVec S300000 32)
    (hdst : ∀ e : S300000.Idx, IntOp.cmpi .sge (dst e) 0#32 = 1#1 ∧ IntOp.cmpi .slt (dst e) 20000#32 = 1#1) :
    select (broadcastInDim S300000x256 ![0] bcast_S300000_S300000x256_0
        (Host.reduce IntOp.andi
          (andi (cmpi .sge (takeIdxE dst) (broadcastInDim S300000x1 ![] bcast_S_S300000x1 (constantI S_ 32 0#32)))
                (cmpi .sle (takeIdxE dst) (broadcastInDim S300000x1 ![0, 1] bcast_S1x1_S300000x1_0_1 (broadcastInDim S1x1 ![1] bcast_S1_S1x1_1 (constantI S1 32 19999#32)))))
          (constantI S_ 1 1#1) reducesTo_S300000x1_S300000_d1 h_S_))
      (Host.gather gather_S20000x256_S300000x1_S300000x256_1_0_n_n_0_1_1256 g (takeIdxE dst))
      (broadcastInDim S300000x256 ![] bcast_S_S300000x256 (constant S_ .f32 0x7FC00000#32))
    = Host.gather gather_S20000x256_S300000x1_S300000x256_1_0_n_n_0_1_1256 g (takeIdxE dst) := by
  funext i
  have hm := Take.mask_one 20000#32 19999#32 Take.lit_E dst hdst i
  show Scalar.select _ _ _ = _
  rw [hm]
  exact if_pos rfl

end Cert.KernelIdeal.Hand

end
-- ==== Proof.Spec.lean ====
/-
  The two functions the five kernel regions compute, each stated once, index by index, over the extended reals,
  at any number of rows `M` (and any inner extent `K`).

  * `lin X W B`: entry `(r, q)` is row `r` of `X` against column `q` of `W`, a sum over the inner axis, plus the
    bias entry `B q` — a dense layer `X · W + B` with the bias broadcast down the rows.
  * `meanRelu S C`: entry `(r, q)` is `max (S (r, q) / max (C (r, 0)) 1) 0` — a segment sum divided by its segment's
    count (a count of zero is replaced by one, so an empty segment gives `0 / 1`), then the positive part.

  The words `0x3F800000` (one) and `0x00000000` (zero) stay as the patterns both programs print: the same word stands
  on both sides of every equation here and is never evaluated.
-/
import Idealize.ShloMosaic.PureOps.Ideal
import Idealize.ShloMosaic.Lib.ValueIdx

noncomputable section

namespace Cert.Spec

open Idealize.ShloMosaic Idealize.ShloMosaic.ValueIdx

/-- `X · W + B`: entry `(r, q)` is `∑ k, X (r, k) * W (k, q)` plus `B q`. -/
def lin {M K : Nat} (X : FVec Ideal ⟨2, ![M, K]⟩ .f32) (W : FVec Ideal ⟨2, ![K, 256]⟩ .f32) (B : FVec Ideal ⟨1, ![256]⟩ .f32) :
    FVec Ideal ⟨2, ![M, 256]⟩ .f32 :=
  fun i => (∑ k : Fin K, X (ix2 (i 0) k) * W (ix2 k (i 1))) + B (ix1 (i 1))

/-- The mean of a segment, then its positive part: entry `(r, q)` is `max (S (r, q) / max (C (r, 0)) 1) 0`. -/
def meanRelu {M : Nat} (S : FVec Ideal ⟨2, ![M, 256]⟩ .f32) (C : FVec Ideal ⟨2, ![M, 1]⟩ .f32) : FVec Ideal ⟨2, ![M, 256]⟩ .f32 :=
  fun i => max (Ideal.div (S i) (max (C (ix2 (i 0) (0 : Fin 1))) (Ideal.ofBits .f32 0x3F800000#32))) (Ideal.ofBits .f32 0x00000000#32)

/-- A vector of `M` counts as the one-column array the mean reads: entry `(r, 0)` is count `r`. -/
def col {M : Nat} (C : FVec Ideal ⟨1, ![M]⟩ .f32) : FVec Ideal ⟨2, ![M, 1]⟩ .f32 := fun j => C (ix1 (j 0))

end Cert.Spec

end
-- ==== Proof.RegionMean1.lean ====
/-
  The first hop's mean and positive part as ONE array: 10 blocks of 2000 hyperedge rows; each point divides its block of
  segment sums by the block of counts (a count below one replaced by one) broadcast along the row, and takes the maximum
  with zero. The blocks tile the 20000 rows, so the output array ends at `Spec.meanRelu` of the sums and the counts column.
-/
import proofs.«422035_j30425548324932_1_alg».proof.Proof.Gen.KernelIdeal.Frame
import proofs.«422035_j30425548324932_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen
open Idealize.ShloMosaic.ValueIdx

namespace Mean1

theorem hz : (![0, 0] : Fin 2 → Nat) = fun _ => 0 := funext fun a => by
  match a with
  | ⟨0, _⟩ => rfl
  | ⟨1, _⟩ => rfl

/-! ## A column broadcast along its rows -/

/-- An `[a, 1]` column broadcast to `[a, b]` reads, at `(p, q)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! ## One point's block of the output, entry by entry -/

/-- The body's value at row `p`, column `q` of its block: the sum there over the row's count (at least one), and
    the positive part of the quotient. -/
theorem pay_apply (cn : Vec Ideal S2000x1 .f32) (s : Vec Ideal S2000x256 .f32) (p : Fin 2000) (q : Fin 256) :
    k1_pay1 cn s (ix2 p q)
      = max (Ideal.div (s (ix2 p q)) (max (cn (ix2 p (0 : Fin 1))) (Ideal.ofBits .f32 0x3F800000#32)))
          (Ideal.ofBits .f32 0x00000000#32) := by
  unfold k1_pay1
  simp only [shapeCast_self]
  rw [maximumf_apply, divf_apply, broadcast_apply, broadcastTo_a1_ab_apply, maximumf_apply, broadcast_apply]
  rfl

/- the buffer contents the region is entered with: any -/
variable (V : (c : Dev nD) → (b : Ref sig .tc) → Buf (Elt Ideal) ((c : Thread nD τ).loc b))

/-- Every window's index map sends point `t` to block `(t, 0)`. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- Point `t`'s block of the sums is rows `2000 t … 2000 t + 1999` of the sums array. -/
theorem sums_blk (c : Dev nD) (t : Fin cfg1.N) (p : Fin 2000) (q : Fin 256) (k : S20000x256.Idx)
    (hk0 : (k 0).val = 2000 * t.val + p.val) (hk1 : (k 1).val = q.val) :
    (iblk1 V c 0 t : Vec Ideal S2000x256 .f32) (ix2 p q) = (V c main_v9 : S20000x256.Idx → Elt Ideal .f32) k := by
  obtain ⟨e0, e1, -, -, -, -⟩ := idx_facts t
  unfold iblk1
  rw [View.read_apply]
  show V c main_v9 _ = V c main_v9 _
  congr 1
  funext a
  apply Fin.ext
  match a with
  | ⟨0, _⟩ => show win1_0.index t (0 : Fin 2) * 2000 + 1 * p.val = (k 0).val; rw [e0, hk0]; omega
  | ⟨1, _⟩ => show win1_0.index t (1 : Fin 2) * 256 + 1 * q.val = (k 1).val; rw [e1, hk1]; omega

/-- Point `t`'s block of the counts is rows `2000 t … 2000 t + 1999` of the counts column. -/
theorem cnts_blk (c : Dev nD) (t : Fin cfg1.N) (p : Fin 2000) (k : S20000x1.Idx)
    (hk0 : (k 0).val = 2000 * t.val + p.val) :
    (iblk1 V c 1 t : Vec Ideal S2000x1 .f32) (ix2 p (0 : Fin 1)) = (V c main_v13 : S20000x1.Idx → Elt Ideal .f32) k := by
  obtain ⟨-, -, e0, e1, -, -⟩ := idx_facts t
  unfold iblk1
  rw [View.read_apply]
  show V c main_v13 _ = V c main_v13 _
  congr 1
  funext a
  apply Fin.ext
  match a with
  | ⟨0, _⟩ => show win1_1.index t (0 : Fin 2) * 2000 + 1 * p.val = (k 0).val; rw [e0, hk0]; omega
  | ⟨1, _⟩ => show win1_1.index t (1 : Fin 2) * 1 + 1 * 0 = (k 1).val; rw [e1]; have h1 : (k 1).val < 1 := (k 1).isLt; omega

/-- Row `p`, column `q` of point `t`'s output block is row `2000 t + p`, column `q` of the output array. -/
theorem out_emb (t : Fin cfg1.N) (p : Fin 2000) (q : Fin 256) :
    ((((cfg1.win 2).blk t).view.emb (ix2 p q) : S20000x256.Idx) 0).val = 2000 * t.val + p.val
      ∧ ((((cfg1.win 2).blk t).view.emb (ix2 p q) : S20000x256.Idx) 1).val = q.val := by
  obtain ⟨-, -, -, -, e0, e1⟩ := idx_facts t
  constructor
  · show win1_2.index t (0 : Fin 2) * 2000 + 1 * p.val = _; rw [e0]; omega
  · show win1_2.index t (1 : Fin 2) * 256 + 1 * q.val = _; rw [e1]; omega

/-- What point `t` writes back is block `t` of the mean's positive part of the two input arrays. -/
theorem flushed_eq (c : Dev nD) (t : Fin cfg1.N) :
    (dat1 (F := Ideal) V c).flushed 2 t
      = ((cfg1.win 2).blk t).view.read (Elt Ideal) (Cert.Spec.meanRelu (M := 20000) (V c main_v9) (V c main_v13)) := by
  show (cfg1.win 2).cut (grid1.coords t) ((dat1 V c).after 2 t) = _
  rw [after1_2]
  unfold out1_2
  rw [View.canon_unit_zero hz]
  simp only [View.ld_unit_zero (S := S2000x256) hz, View.ld_unit_zero (S := S2000x1) hz]
  funext j
  obtain ⟨p, q, rfl⟩ : ∃ (p : Fin 2000) (q : Fin 256), j = ix2 p q := ⟨j 0, j 1, eq_ix2 j⟩
  obtain ⟨h0, h1⟩ := out_emb t p q
  show k1_pay1 (iblk1 V c 1 t) (iblk1 V c 0 t) (ix2 p q)
    = Cert.Spec.meanRelu (M := 20000) (V c main_v9) (V c main_v13) (((cfg1.win 2).blk t).view.emb (ix2 p q))
  rw [pay_apply, sums_blk V c t p q _ h0 h1, cnts_blk V c t p (ix2 ((((cfg1.win 2).blk t).view.emb (ix2 p q) : S20000x256.Idx) 0) (0 : Fin 1)) h0]
  rfl

/-! ## The blocks tile the rows -/

/-- An index of the output array is in point `t`'s block iff each coordinate is in the block's range on its axis. -/
theorem mem_blk (t : Fin cfg1.N) (i : S20000x256.Idx) :
    i ∈ ((cfg1.win 2).blk t).view.set ↔ ∀ a : Fin 2, win1_2.index t a * S2000x256.size a ≤ (i a).val
      ∧ (i a).val < win1_2.index t a * S2000x256.size a + S2000x256.size a := by
  show i ∈ ((View.whole main_v14).slice (win1_2.rect t)).set ↔ _
  rw [View.set_slice_whole, Rect.mem_set_unit]
  exact Iff.rfl

/-- Row `r` of the output array is in the block of point `r / 2000`. -/
theorem cover (i : S20000x256.Idx) :
    ∃ t : Fin cfg1.N, (cfg1.win 2).flush t = true ∧ i ∈ ((cfg1.win 2).blk t).view.set := by
  have hi0 : (i 0).val < 20000 := (i 0).isLt
  have hi1 : (i 1).val < 256 := (i 1).isLt
  have hN : cfg1.N = 10 := N_1
  let t : Fin cfg1.N := ⟨(i 0).val / 2000, by rw [hN]; omega⟩
  have ht : t.val = (i 0).val / 2000 := rfl
  obtain ⟨-, -, -, -, e0, e1⟩ := idx_facts t
  refine ⟨t, flush1_2 t, ?_⟩
  rw [mem_blk]
  intro a
  match a with
  | ⟨0, _⟩ =>
    show win1_2.index t (0 : Fin 2) * 2000 ≤ (i 0).val ∧ (i 0).val < win1_2.index t (0 : Fin 2) * 2000 + 2000
    rw [e0, ht]; omega
  | ⟨1, _⟩ =>
    show win1_2.index t (1 : Fin 2) * 256 ≤ (i 1).val ∧ (i 1).val < win1_2.index t (1 : Fin 2) * 256 + 256
    rw [e1]; omega

end Mean1

/- the buffer contents the region is entered with: any -/
variable (V : (c : Dev nD) → (b : Ref sig .tc) → Buf (Elt Ideal) ((c : Thread nD τ).loc b))

/-- After the region's last point its output array is that function of its input arrays. -/
theorem mean1 (c : Dev nD) :
    (dat1 (F := Ideal) V c).arrAt 2 cfg1.N = Cert.Spec.meanRelu (M := 20000) (V c main_v9) (V c main_v13) :=
  (dat1 (F := Ideal) V c).arrAt_eq_of_cover 2 (Cert.Spec.meanRelu (M := 20000) (V c main_v9) (V c main_v13))
    (fun t _ => Mean1.flushed_eq V c t) Mean1.cover

end Cert.KernelIdeal.Hand

end
-- ==== Proof.RegionMean4.lean ====
/-
  The second hop's mean and positive part as ONE array: 50 blocks of 2000 node rows; sums over counts (a count below one
  replaced by one), then the maximum with zero. The blocks tile the 100000 rows.
-/
import proofs.«422035_j30425548324932_1_alg».proof.Proof.Gen.KernelIdeal.Frame
import proofs.«422035_j30425548324932_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen
open Idealize.ShloMosaic.ValueIdx

namespace Mean4

theorem hz : (![0, 0] : Fin 2 → Nat) = fun _ => 0 := funext fun a => by
  match a with
  | ⟨0, _⟩ => rfl
  | ⟨1, _⟩ => rfl

/-! ## A column broadcast along its rows -/

/-- An `[a, 1]` column broadcast to `[a, b]` reads, at `(p, q)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! ## One point's block of the output, entry by entry -/

/-- The body's value at row `p`, column `q` of its block: the sum there over the row's count (at least one), and
    the positive part of the quotient. -/
theorem pay_apply (cn : Vec Ideal S2000x1 .f32) (s : Vec Ideal S2000x256 .f32) (p : Fin 2000) (q : Fin 256) :
    k4_pay1 cn s (ix2 p q)
      = max (Ideal.div (s (ix2 p q)) (max (cn (ix2 p (0 : Fin 1))) (Ideal.ofBits .f32 0x3F800000#32)))
          (Ideal.ofBits .f32 0x00000000#32) := by
  unfold k4_pay1
  simp only [shapeCast_self]
  rw [maximumf_apply, divf_apply, broadcast_apply, broadcastTo_a1_ab_apply, maximumf_apply, broadcast_apply]
  rfl

/- the buffer contents the region is entered with: any -/
variable (V : (c : Dev nD) → (b : Ref sig .tc) → Buf (Elt Ideal) ((c : Thread nD τ).loc b))

/-- Every window's index map sends point `t` to block `(t, 0)`. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- Point `t`'s block of the sums is rows `2000 t … 2000 t + 1999` of the sums array. -/
theorem sums_blk (c : Dev nD) (t : Fin cfg4.N) (p : Fin 2000) (q : Fin 256) (k : S100000x256.Idx)
    (hk0 : (k 0).val = 2000 * t.val + p.val) (hk1 : (k 1).val = q.val) :
    (iblk4 V c 0 t : Vec Ideal S2000x256 .f32) (ix2 p q) = (V c main_v21 : S100000x256.Idx → Elt Ideal .f32) k := by
  obtain ⟨e0, e1, -, -, -, -⟩ := idx_facts t
  unfold iblk4
  rw [View.read_apply]
  show V c main_v21 _ = V c main_v21 _
  congr 1
  funext a
  apply Fin.ext
  match a with
  | ⟨0, _⟩ => show win4_0.index t (0 : Fin 2) * 2000 + 1 * p.val = (k 0).val; rw [e0, hk0]; omega
  | ⟨1, _⟩ => show win4_0.index t (1 : Fin 2) * 256 + 1 * q.val = (k 1).val; rw [e1, hk1]; omega

/-- Point `t`'s block of the counts is rows `2000 t … 2000 t + 1999` of the counts column. -/
theorem cnts_blk (c : Dev nD) (t : Fin cfg4.N) (p : Fin 2000) (k : S100000x1.Idx)
    (hk0 : (k 0).val = 2000 * t.val + p.val) :
    (iblk4 V c 1 t : Vec Ideal S2000x1 .f32) (ix2 p (0 : Fin 1)) = (V c main_v25 : S100000x1.Idx → Elt Ideal .f32) k := by
  obtain ⟨-, -, e0, e1, -, -⟩ := idx_facts t
  unfold iblk4
  rw [View.read_apply]
  show V c main_v25 _ = V c main_v25 _
  congr 1
  funext a
  apply Fin.ext
  match a with
  | ⟨0, _⟩ => show win4_1.index t (0 : Fin 2) * 2000 + 1 * p.val = (k 0).val; rw [e0, hk0]; omega
  | ⟨1, _⟩ => show win4_1.index t (1 : Fin 2) * 1 + 1 * 0 = (k 1).val; rw [e1]; have h1 : (k 1).val < 1 := (k 1).isLt; omega

/-- Row `p`, column `q` of point `t`'s output block is row `2000 t + p`, column `q` of the output array. -/
theorem out_emb (t : Fin cfg4.N) (p : Fin 2000) (q : Fin 256) :
    ((((cfg4.win 2).blk t).view.emb (ix2 p q) : S100000x256.Idx) 0).val = 2000 * t.val + p.val
      ∧ ((((cfg4.win 2).blk t).view.emb (ix2 p q) : S100000x256.Idx) 1).val = q.val := by
  obtain ⟨-, -, -, -, e0, e1⟩ := idx_facts t
  constructor
  · show win4_2.index t (0 : Fin 2) * 2000 + 1 * p.val = _; rw [e0]; omega
  · show win4_2.index t (1 : Fin 2) * 256 + 1 * q.val = _; rw [e1]; omega

/-- What point `t` writes back is block `t` of the mean's positive part of the two input arrays. -/
theorem flushed_eq (c : Dev nD) (t : Fin cfg4.N) :
    (dat4 (F := Ideal) V c).flushed 2 t
      = ((cfg4.win 2).blk t).view.read (Elt Ideal) (Cert.Spec.meanRelu (M := 100000) (V c main_v21) (V c main_v25)) := by
  show (cfg4.win 2).cut (grid4.coords t) ((dat4 V c).after 2 t) = _
  rw [after4_2]
  unfold out4_2
  rw [View.canon_unit_zero hz]
  simp only [View.ld_unit_zero (S := S2000x256) hz, View.ld_unit_zero (S := S2000x1) hz]
  funext j
  obtain ⟨p, q, rfl⟩ : ∃ (p : Fin 2000) (q : Fin 256), j = ix2 p q := ⟨j 0, j 1, eq_ix2 j⟩
  obtain ⟨h0, h1⟩ := out_emb t p q
  show k4_pay1 (iblk4 V c 1 t) (iblk4 V c 0 t) (ix2 p q)
    = Cert.Spec.meanRelu (M := 100000) (V c main_v21) (V c main_v25) (((cfg4.win 2).blk t).view.emb (ix2 p q))
  rw [pay_apply, sums_blk V c t p q _ h0 h1, cnts_blk V c t p (ix2 ((((cfg4.win 2).blk t).view.emb (ix2 p q) : S100000x256.Idx) 0) (0 : Fin 1)) h0]
  rfl

/-! ## The blocks tile the rows -/

/-- An index of the output array is in point `t`'s block iff each coordinate is in the block's range on its axis. -/
theorem mem_blk (t : Fin cfg4.N) (i : S100000x256.Idx) :
    i ∈ ((cfg4.win 2).blk t).view.set ↔ ∀ a : Fin 2, win4_2.index t a * S2000x256.size a ≤ (i a).val
      ∧ (i a).val < win4_2.index t a * S2000x256.size a + S2000x256.size a := by
  show i ∈ ((View.whole main_v26).slice (win4_2.rect t)).set ↔ _
  rw [View.set_slice_whole, Rect.mem_set_unit]
  exact Iff.rfl

/-- Row `r` of the output array is in the block of point `r / 2000`. -/
theorem cover (i : S100000x256.Idx) :
    ∃ t : Fin cfg4.N, (cfg4.win 2).flush t = true ∧ i ∈ ((cfg4.win 2).blk t).view.set := by
  have hi0 : (i 0).val < 100000 := (i 0).isLt
  have hi1 : (i 1).val < 256 := (i 1).isLt
  have hN : cfg4.N = 50 := N_4
  let t : Fin cfg4.N := ⟨(i 0).val / 2000, by rw [hN]; omega⟩
  have ht : t.val = (i 0).val / 2000 := rfl
  obtain ⟨-, -, -, -, e0, e1⟩ := idx_facts t
  refine ⟨t, flush4_2 t, ?_⟩
  rw [mem_blk]
  intro a
  match a with
  | ⟨0, _⟩ =>
    show win4_2.index t (0 : Fin 2) * 2000 ≤ (i 0).val ∧ (i 0).val < win4_2.index t (0 : Fin 2) * 2000 + 2000
    rw [e0, ht]; omega
  | ⟨1, _⟩ =>
    show win4_2.index t (1 : Fin 2) * 256 ≤ (i 1).val ∧ (i 1).val < win4_2.index t (1 : Fin 2) * 256 + 256
    rw [e1]; omega

end Mean4

/- the buffer contents the region is entered with: any -/
variable (V : (c : Dev nD) → (b : Ref sig .tc) → Buf (Elt Ideal) ((c : Thread nD τ).loc b))

/-- After the region's last point its output array is that function of its input arrays. -/
theorem mean4 (c : Dev nD) :
    (dat4 (F := Ideal) V c).arrAt 2 cfg4.N = Cert.Spec.meanRelu (M := 100000) (V c main_v21) (V c main_v25) :=
  (dat4 (F := Ideal) V c).arrAt_eq_of_cover 2 (Cert.Spec.meanRelu (M := 100000) (V c main_v21) (V c main_v25))
    (fun t _ => Mean4.flushed_eq V c t) Mean4.cover

end Cert.KernelIdeal.Hand

end
-- ==== Proof.KVal.lean ====
/-
  The kernel program's two results as closed terms of its arguments, when every node id is in `[0, 100000)` and every
  hyperedge id in `[0, 20000)`. Walking the buffers boundary by boundary: the first region leaves `h = lin emb_V W_v2e b_v2e`;
  the take of `h` at the node ids is the plain gather (in-range ids: no fill is read); its rows summed per hyperedge and the
  per-hyperedge counts go through the mean region, which leaves `meanRelu` of them; joined to `emb_E` and through the
  fusing layer that is the second result `E`; `g = lin E W_e2v b_e2v`, gathered at the hyperedge ids, summed and counted per
  node, through the last mean region, is the first result.
-/
import proofs.«422035_j30425548324932_1_alg».proof.Proof.KFold
import proofs.«422035_j30425548324932_1_alg».proof.Proof.KTake
import proofs.«422035_j30425548324932_1_alg».proof.Proof.RegionMean1
import proofs.«422035_j30425548324932_1_alg».proof.Proof.RegionMean4
import proofs.«422035_j30425548324932_1_alg».proof.Proof.Spec

set_option maxRecDepth 16384

noncomputable section

open Idealize.ShloMosaic Idealize.ShloMosaic.TcCoe Idealize.SL.Sem Idealize.ShloMosaic.StableHlo
open Idealize.ShloMosaic.Pipeline (Dat)

namespace Cert.KernelIdeal.Hand

open Cert.KernelIdeal Cert.KernelIdeal.Gen

/-- What the three dense-layer regions leave and what the two count reshapes are (each proved in its own module). -/
structure Pieces : Prop where
  lin0 : ∀ (V : (c : Dev nD) → (b : Ref sig .tc) → Buf (Elt Ideal) ((c : Thread nD τ).loc b)) (c : Dev nD),
    (dat0 (F := Ideal) V c).arrAt 3 cfg0.N = Cert.Spec.lin (M := 100000) (K := 256) (V c main_arg0) (V c main_arg3) (V c main_arg4)
  lin2 : ∀ (V : (c : Dev nD) → (b : Ref sig .tc) → Buf (Elt Ideal) ((c : Thread nD τ).loc b)) (c : Dev nD),
    (dat2 (F := Ideal) V c).arrAt 3 cfg2.N = Cert.Spec.lin (M := 20000) (K := 512) (V c main_v15) (V c main_arg5) (V c main_arg6)
  lin3 : ∀ (V : (c : Dev nD) → (b : Ref sig .tc) → Buf (Elt Ideal) ((c : Thread nD τ).loc b)) (c : Dev nD),
    (dat3 (F := Ideal) V c).arrAt 3 cfg3.N = Cert.Spec.lin (M := 20000) (K := 256) (V c main_v16) (V c main_arg7) (V c main_arg8)
  colE : ∀ C : FVec Ideal S20000 .f32, shapeCast S20000x1 C shapeCasts_S20000_S20000x1 = Cert.Spec.col C
  colV : ∀ C : FVec Ideal S100000 .f32, shapeCast S100000x1 C shapeCasts_S100000_S100000x1 = Cert.Spec.col C

variable (m : (ℓ : Loc nD τ sig) → Buf (Elt Ideal) ℓ) (ρ : Dev nD → PrngReg)

/-- Every node id in `[0, 100000)`, every hyperedge id in `[0, 20000)`, on every device. -/
def InRange : Prop := ∀ c : Dev nD,
  (∀ e : S300000.Idx, IntOp.cmpi .sge (srcOf (m ((c : Thread nD τ).loc main_arg2)) e) 0#32 = 1#1 ∧ IntOp.cmpi .slt (srcOf (m ((c : Thread nD τ).loc main_arg2)) e) 100000#32 = 1#1)
  ∧ (∀ e : S300000.Idx, IntOp.cmpi .sge (dstOf (m ((c : Thread nD τ).loc main_arg2)) e) 0#32 = 1#1 ∧ IntOp.cmpi .slt (dstOf (m ((c : Thread nD τ).loc main_arg2)) e) 20000#32 = 1#1)

/-! ## The closed terms -/

/-- `h = emb_V · W_v2e + b_v2e`. -/
def kerH (c : Dev nD) : FVec Ideal S100000x256 .f32 :=
  Cert.Spec.lin (m ((c : Thread nD τ).loc main_arg0)) (m ((c : Thread nD τ).loc main_arg3)) (m ((c : Thread nD τ).loc main_arg4))

/-- The first hop: the mean over each hyperedge's edges of the node rows, its positive part. -/
def kerETmp (c : Dev nD) : FVec Ideal S20000x256 .f32 :=
  Cert.Spec.meanRelu
    (sumE (dstOf (m ((c : Thread nD τ).loc main_arg2)))
      (Host.gather gather_S100000x256_S300000x1_S300000x256_1_0_n_n_0_1_1256 (kerH m c) (idxCol 100000#32 (srcOf (m ((c : Thread nD τ).loc main_arg2))))))
    (Cert.Spec.col (cntE (dstOf (m ((c : Thread nD τ).loc main_arg2))) onesE))

/-- The fused hyperedge features `[emb_E | e_tmp] · W_fuse + b_fuse`: the program's second result. -/
def kerE (c : Dev nD) : FVec Ideal S20000x256 .f32 :=
  Cert.Spec.lin
    (concatenate S20000x512 1 [⟨S20000x256, (m ((c : Thread nD τ).loc main_arg1))⟩, ⟨S20000x256, kerETmp m c⟩] concatenates_S20000x256_S20000x256_S20000x512_d1)
    (m ((c : Thread nD τ).loc main_arg5)) (m ((c : Thread nD τ).loc main_arg6))

/-- `g = emb_E_new · W_e2v + b_e2v`. -/
def kerG (c : Dev nD) : FVec Ideal S20000x256 .f32 :=
  Cert.Spec.lin (kerE m c) (m ((c : Thread nD τ).loc main_arg7)) (m ((c : Thread nD τ).loc main_arg8))

/-- The second hop: the mean over each node's edges of the hyperedge rows, its positive part: the program's first result. -/
def kerV (c : Dev nD) : FVec Ideal S100000x256 .f32 :=
  Cert.Spec.meanRelu
    (sumV (srcOf (m ((c : Thread nD τ).loc main_arg2)))
      (Host.gather gather_S20000x256_S300000x1_S300000x256_1_0_n_n_0_1_1256 (kerG m c) (idxCol 20000#32 (dstOf (m ((c : Thread nD τ).loc main_arg2))))))
    (Cert.Spec.col (cntV (srcOf (m ((c : Thread nD τ).loc main_arg2))) onesE))

/-! ## The ids and the untouched arguments at each boundary -/

theorem W2_src (c : Dev nD) : W2 m ρ c (Proc.devRef .tc main_v1) = srcOf (m ((c : Thread nD τ).loc main_arg2)) :=
  (keep12 m ρ c main_v1 (by simp)).trans (W1_src m ρ c)
theorem W2_dst (c : Dev nD) : W2 m ρ c (Proc.devRef .tc main_v3) = dstOf (m ((c : Thread nD τ).loc main_arg2)) :=
  (keep12 m ρ c main_v3 (by simp)).trans (W1_dst m ρ c)
theorem W3_dst (c : Dev nD) : W3 m ρ c (Proc.devRef .tc main_v3) = dstOf (m ((c : Thread nD τ).loc main_arg2)) :=
  (keep23 m ρ c main_v3 (by simp)).trans (W2_dst m ρ c)

/-- A buffer nothing writes before region 1's exit holds there what it held after the first host stretch. -/
theorem W5_of_W1 (c : Dev nD) (b : Ref sig .tc) (hb : b ∈ [main_v1, main_v3, main_arg1, main_arg5, main_arg6, main_arg7, main_arg8]) :
    W5 m ρ c (Proc.devRef .tc b) = W1 m ρ c (Proc.devRef .tc b) :=
  (keep45 m ρ c b (by simp only [List.mem_cons, List.not_mem_nil, or_false] at hb ⊢; tauto)).trans
    ((keep34 m ρ c b hb).trans ((keep23 m ρ c b hb).trans (keep12 m ρ c b hb)))

theorem W5_arg1 (c : Dev nD) : W5 m ρ c (Proc.devRef .tc main_arg1) = (m ((c : Thread nD τ).loc main_arg1)) :=
  (W5_of_W1 m ρ c main_arg1 (by simp)).trans (keep01 m ρ c main_arg1 (by simp))
theorem W6_arg5 (c : Dev nD) : W6 m ρ c (Proc.devRef .tc main_arg5) = (m ((c : Thread nD τ).loc main_arg5)) :=
  (keep56 m ρ c main_arg5 (by simp)).trans ((W5_of_W1 m ρ c main_arg5 (by simp)).trans (keep01 m ρ c main_arg5 (by simp)))
theorem W6_arg6 (c : Dev nD) : W6 m ρ c (Proc.devRef .tc main_arg6) = (m ((c : Thread nD τ).loc main_arg6)) :=
  (keep56 m ρ c main_arg6 (by simp)).trans ((W5_of_W1 m ρ c main_arg6 (by simp)).trans (keep01 m ρ c main_arg6 (by simp)))
theorem W7_arg7 (c : Dev nD) : W7 m ρ c (Proc.devRef .tc main_arg7) = (m ((c : Thread nD τ).loc main_arg7)) :=
  (keep67 m ρ c main_arg7 (by simp)).trans ((keep56 m ρ c main_arg7 (by simp)).trans ((W5_of_W1 m ρ c main_arg7 (by simp)).trans (keep01 m ρ c main_arg7 (by simp))))
theorem W7_arg8 (c : Dev nD) : W7 m ρ c (Proc.devRef .tc main_arg8) = (m ((c : Thread nD τ).loc main_arg8)) :=
  (keep67 m ρ c main_arg8 (by simp)).trans ((keep56 m ρ c main_arg8 (by simp)).trans ((W5_of_W1 m ρ c main_arg8 (by simp)).trans (keep01 m ρ c main_arg8 (by simp))))
theorem W8_src (c : Dev nD) : W8 m ρ c (Proc.devRef .tc main_v1) = srcOf (m ((c : Thread nD τ).loc main_arg2)) :=
  (keep78 m ρ c main_v1 (by simp)).trans ((keep67 m ρ c main_v1 (by simp)).trans ((keep56 m ρ c main_v1 (by simp)).trans
    ((W5_of_W1 m ρ c main_v1 (by simp)).trans (W1_src m ρ c))))
theorem W8_dst (c : Dev nD) : W8 m ρ c (Proc.devRef .tc main_v3) = dstOf (m ((c : Thread nD τ).loc main_arg2)) :=
  (keep78 m ρ c main_v3 (by simp)).trans ((keep67 m ρ c main_v3 (by simp)).trans ((keep56 m ρ c main_v3 (by simp)).trans
    ((W5_of_W1 m ρ c main_v3 (by simp)).trans (W1_dst m ρ c))))
theorem W8_ones (c : Dev nD) : W8 m ρ c (Proc.devRef .tc main_v6) = onesE (F := Ideal) :=
  (keep78 m ρ c main_v6 (by simp)).trans ((keep67 m ρ c main_v6 (by simp)).trans ((keep56 m ρ c main_v6 (by simp)).trans
    ((keep45 m ρ c main_v6 (by simp)).trans (W4_ones m ρ c))))

/-! ## The values, boundary by boundary -/

section Values

variable (P : Pieces) (hr : InRange m)
include P hr

theorem W2_hval (c : Dev nD) : W2 m ρ c (Proc.devRef .tc main_v4) = kerH m c := by
  rw [W2_h, P.lin0 (V1 m ρ) c]
  show Cert.Spec.lin (W1 m ρ c (Proc.devRef .tc main_arg0)) (W1 m ρ c (Proc.devRef .tc main_arg3)) (W1 m ρ c (Proc.devRef .tc main_arg4)) = _
  rw [keep01 m ρ c main_arg0 (by simp), keep01 m ρ c main_arg3 (by simp), keep01 m ρ c main_arg4 (by simp)]
  rfl

theorem W3_rows (c : Dev nD) :
    W3 m ρ c (Proc.devRef .tc main_v5)
      = Host.gather gather_S100000x256_S300000x1_S300000x256_1_0_n_n_0_1_1256 (kerH m c) (idxCol 100000#32 (srcOf (m ((c : Thread nD τ).loc main_arg2)))) := by
  rw [W3_take, W2_hval m ρ P hr c, W2_src]
  exact take_V _ _ (hr c).1

theorem W4_sumval (c : Dev nD) :
    W4 m ρ c (Proc.devRef .tc main_v9)
      = sumE (dstOf (m ((c : Thread nD τ).loc main_arg2)))
          (Host.gather gather_S100000x256_S300000x1_S300000x256_1_0_n_n_0_1_1256 (kerH m c) (idxCol 100000#32 (srcOf (m ((c : Thread nD τ).loc main_arg2))))) := by
  rw [W4_sum, W3_dst, W3_rows m ρ P hr c]

theorem W4_cntval (c : Dev nD) :
    W4 m ρ c (Proc.devRef .tc main_v13) = Cert.Spec.col (cntE (dstOf (m ((c : Thread nD τ).loc main_arg2))) onesE) := by
  rw [W4_cnt, W3_dst]
  exact P.colE _

theorem W5_etmp (c : Dev nD) : W5 m ρ c (Proc.devRef .tc main_v14) = kerETmp m c := by
  rw [W5_e, mean1 (V4 m ρ) c]
  show Cert.Spec.meanRelu (W4 m ρ c (Proc.devRef .tc main_v9)) (W4 m ρ c (Proc.devRef .tc main_v13)) = _
  rw [W4_sumval m ρ P hr c, W4_cntval m ρ P hr c]
  rfl

theorem W7_E (c : Dev nD) : W7 m ρ c (Proc.devRef .tc main_v16) = kerE m c := by
  rw [W7_out, P.lin2 (V6 m ρ) c]
  show Cert.Spec.lin (W6 m ρ c (Proc.devRef .tc main_v15)) (W6 m ρ c (Proc.devRef .tc main_arg5)) (W6 m ρ c (Proc.devRef .tc main_arg6)) = _
  rw [W6_cat, W5_arg1, W5_etmp m ρ P hr c, W6_arg5, W6_arg6]
  rfl

theorem W8_gval (c : Dev nD) : W8 m ρ c (Proc.devRef .tc main_v17) = kerG m c := by
  rw [W8_g, P.lin3 (V7 m ρ) c]
  show Cert.Spec.lin (W7 m ρ c (Proc.devRef .tc main_v16)) (W7 m ρ c (Proc.devRef .tc main_arg7)) (W7 m ρ c (Proc.devRef .tc main_arg8)) = _
  rw [W7_E m ρ P hr c, W7_arg7, W7_arg8]
  rfl

theorem W9_rows (c : Dev nD) :
    W9 m ρ c (Proc.devRef .tc main_v18)
      = Host.gather gather_S20000x256_S300000x1_S300000x256_1_0_n_n_0_1_1256 (kerG m c) (idxCol 20000#32 (dstOf (m ((c : Thread nD τ).loc main_arg2)))) := by
  rw [W9_take, W8_gval m ρ P hr c, W8_dst]
  exact take_E _ _ (hr c).2

/-- THE SECOND RESULT: the fused hyperedge features. -/
theorem W11_E (c : Dev nD) : W11 m ρ c (Proc.devRef .tc main_v16) = kerE m c :=
  (keep1011 m ρ c).trans ((keep910 m ρ c).trans ((keep89 m ρ c main_v16 (by simp)).trans ((keep78_v16 m ρ c).trans (W7_E m ρ P hr c))))

/-- THE FIRST RESULT: the new node features. -/
theorem W11_V (c : Dev nD) : W11 m ρ c (Proc.devRef .tc main_v26) = kerV m c := by
  rw [W11_out, mean4 (V10 m ρ) c]
  show Cert.Spec.meanRelu (W10 m ρ c (Proc.devRef .tc main_v21)) (W10 m ρ c (Proc.devRef .tc main_v25)) = _
  rw [W10_sum, W10_cnt, keep89 m ρ c main_v1 (by simp), keep89 m ρ c main_v6 (by simp), W8_src, W8_ones, W9_rows m ρ P hr c, P.colV]
  rfl

end Values

end Cert.KernelIdeal.Hand

end
-- ==== Proof.RefSide.lean ====
/-
  The reference's dense layers and means, read index by index. A `dot_general` contracting the inner axis is, on the
  extended reals, the sum over that axis of the products; the bias reaches entry `(r, q)` through two broadcasts as its
  entry `q`; the host's quotient is the same `Ideal.div` the kernels' `divf` is; the count reaches entry `(r, q)` through
  two broadcasts as the count of row `r`. So each of the reference's five stages is `Spec.lin` or `Spec.meanRelu`.
-/
import proofs.«422035_j30425548324932_1_alg».proof.ReferenceIdeal
import proofs.«422035_j30425548324932_1_alg».proof.Proof.Gen.ReferenceIdeal
import proofs.«422035_j30425548324932_1_alg».proof.Proof.Gen.ReferenceIdeal.Read
import proofs.«422035_j30425548324932_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe

namespace Cert.ReferenceIdeal.Hand

open Cert.ReferenceIdeal Cert.ReferenceIdeal.Gen

/-- The bias under its two broadcasts, read at `(r, q)`: entry `q` of the bias. -/
theorem bias100000_apply (B : FVec Ideal S256 .f32) (i : S100000x256.Idx) :
    broadcastInDim S100000x256 ![0, 1] bcast_S1x256_S100000x256_0_1 (broadcastInDim S1x256 ![1] bcast_S256_S1x256_1 B) i
      = B (ValueIdx.ix1 (i 1)) := by
  show Read.val_main_v6 (F := Ideal) B i = _
  rw [Read.val_main_v6_apply, Read.val_main_v5_apply]
  refine congrArg B (funext fun a => Fin.ext ?_)
  match a with
  | ⟨0, _⟩ => rfl

/-- The `dot_general` contracting the inner axis of extent 256, read at `(r, q)`: the sum over `k` of the left operand
    at `(r, k)` times the right operand at `(k, q)`. -/
theorem dot_v4_apply (X : FVec Ideal S100000x256 .f32) (W : FVec Ideal S256x256 .f32) (i : S100000x256.Idx) :
    Host.dotGeneral dot_S100000x256_S256x256_S100000x256_1_0_0_1_n_n none X W i
      = ∑ k : Fin 256, X (ValueIdx.ix2 (i 0) k) * W (ValueIdx.ix2 k (i 1)) := by
  show Read.val_main_v4 (F := Ideal) X W i = _
  rw [Read.val_main_v4_apply]
  refine Finset.sum_congr rfl fun k _ => ?_
  have el : Read.lidx_main_v4 i k = ValueIdx.ix2 (i 0) k := funext fun a => Fin.ext (by
    match a with
    | ⟨0, _⟩ => rfl
    | ⟨1, _⟩ => rfl)
  have er : Read.ridx_main_v4 i k = ValueIdx.ix2 k (i 1) := funext fun a => Fin.ext (by
    match a with
    | ⟨0, _⟩ => rfl
    | ⟨1, _⟩ => rfl)
  exact congrArg₂ (· * ·) (congrArg X el) (congrArg W er)

/-- `emb_V @ W_v2e + b_v2e`. -/
theorem lin_v7 (X : FVec Ideal S100000x256 .f32) (W : FVec Ideal S256x256 .f32) (B : FVec Ideal S256 .f32) :
    addf (Host.dotGeneral dot_S100000x256_S256x256_S100000x256_1_0_0_1_n_n none X W)
      (broadcastInDim S100000x256 ![0, 1] bcast_S1x256_S100000x256_0_1 (broadcastInDim S1x256 ![1] bcast_S256_S1x256_1 B))
    = Cert.Spec.lin X W B := by
  funext i
  show FloatOps.addf (Host.dotGeneral dot_S100000x256_S256x256_S100000x256_1_0_0_1_n_n none X W i) (broadcastInDim S100000x256 ![0, 1] bcast_S1x256_S100000x256_0_1 (broadcastInDim S1x256 ![1] bcast_S256_S1x256_1 B) i) = _
  rw [dot_v4_apply, bias100000_apply, Ideal.addf_def]
  rfl

/-- The bias under its two broadcasts, read at `(r, q)`: entry `q` of the bias. -/
theorem bias20000_apply (B : FVec Ideal S256 .f32) (i : S20000x256.Idx) :
    broadcastInDim S20000x256 ![0, 1] bcast_S1x256_S20000x256_0_1 (broadcastInDim S1x256 ![1] bcast_S256_S1x256_1 B) i
      = B (ValueIdx.ix1 (i 1)) := by
  show Read.val_main_v31 (F := Ideal) B i = _
  rw [Read.val_main_v31_apply, Read.val_main_v30_apply]
  refine congrArg B (funext fun a => Fin.ext ?_)
  match a with
  | ⟨0, _⟩ => rfl

/-- The `dot_general` contracting the inner axis of extent 512, read at `(r, q)`: the sum over `k` of the left operand
    at `(r, k)` times the right operand at `(k, q)`. -/
theorem dot_v29_apply (X : FVec Ideal S20000x512 .f32) (W : FVec Ideal S512x256 .f32) (i : S20000x256.Idx) :
    Host.dotGeneral dot_S20000x512_S512x256_S20000x256_1_0_0_1_n_n none X W i
      = ∑ k : Fin 512, X (ValueIdx.ix2 (i 0) k) * W (ValueIdx.ix2 k (i 1)) := by
  simp only [Host.dotGeneral]
  rw [Ideal.dotGeneral_apply, ← Equiv.sum_comp (ValueIdx.contrEquiv1 dot_S20000x512_S512x256_S20000x256_1_0_0_1_n_n 512 rfl rfl).symm]
  refine Finset.sum_congr rfl fun k _ => ?_
  have hk := ValueIdx.contrEquiv1_symm_val dot_S20000x512_S512x256_S20000x256_1_0_0_1_n_n 512 rfl rfl k
  have el : dot_S20000x512_S512x256_S20000x256_1_0_0_1_n_n.lhsIdx i ((ValueIdx.contrEquiv1 dot_S20000x512_S512x256_S20000x256_1_0_0_1_n_n 512 rfl rfl).symm k) = ValueIdx.ix2 (i 0) k := funext fun a => Fin.ext (by
    match a with
    | ⟨0, _⟩ => exact Read.lhs_main_v29_0 _ _
    | ⟨1, _⟩ => exact (Read.lhs_main_v29_1 _ _).trans hk)
  have er : dot_S20000x512_S512x256_S20000x256_1_0_0_1_n_n.rhsIdx i ((ValueIdx.contrEquiv1 dot_S20000x512_S512x256_S20000x256_1_0_0_1_n_n 512 rfl rfl).symm k) = ValueIdx.ix2 k (i 1) := funext fun a => Fin.ext (by
    match a with
    | ⟨0, _⟩ => exact (Read.rhs_main_v29_0 _ _).trans hk
    | ⟨1, _⟩ => exact Read.rhs_main_v29_1 _ _)
  exact congrArg₂ (· * ·) (congrArg X el) (congrArg W er)

/-- The `dot_general` contracting the inner axis of extent 256, read at `(r, q)`: the sum over `k` of the left operand
    at `(r, k)` times the right operand at `(k, q)`. -/
theorem dot_v33_apply (X : FVec Ideal S20000x256 .f32) (W : FVec Ideal S256x256 .f32) (i : S20000x256.Idx) :
    Host.dotGeneral dot_S20000x256_S256x256_S20000x256_1_0_0_1_n_n none X W i
      = ∑ k : Fin 256, X (ValueIdx.ix2 (i 0) k) * W (ValueIdx.ix2 k (i 1)) := by
  simp only [Host.dotGeneral]
  rw [Ideal.dotGeneral_apply, ← Equiv.sum_comp (ValueIdx.contrEquiv1 dot_S20000x256_S256x256_S20000x256_1_0_0_1_n_n 256 rfl rfl).symm]
  refine Finset.sum_congr rfl fun k _ => ?_
  have hk := ValueIdx.contrEquiv1_symm_val dot_S20000x256_S256x256_S20000x256_1_0_0_1_n_n 256 rfl rfl k
  have el : dot_S20000x256_S256x256_S20000x256_1_0_0_1_n_n.lhsIdx i ((ValueIdx.contrEquiv1 dot_S20000x256_S256x256_S20000x256_1_0_0_1_n_n 256 rfl rfl).symm k) = ValueIdx.ix2 (i 0) k := funext fun a => Fin.ext (by
    match a with
    | ⟨0, _⟩ => exact Read.lhs_main_v33_0 _ _
    | ⟨1, _⟩ => exact (Read.lhs_main_v33_1 _ _).trans hk)
  have er : dot_S20000x256_S256x256_S20000x256_1_0_0_1_n_n.rhsIdx i ((ValueIdx.contrEquiv1 dot_S20000x256_S256x256_S20000x256_1_0_0_1_n_n 256 rfl rfl).symm k) = ValueIdx.ix2 k (i 1) := funext fun a => Fin.ext (by
    match a with
    | ⟨0, _⟩ => exact (Read.rhs_main_v33_0 _ _).trans hk
    | ⟨1, _⟩ => exact Read.rhs_main_v33_1 _ _)
  exact congrArg₂ (· * ·) (congrArg X el) (congrArg W er)

/-- `concat @ W_fuse + b_fuse`. -/
theorem lin_v32 (X : FVec Ideal S20000x512 .f32) (W : FVec Ideal S512x256 .f32) (B : FVec Ideal S256 .f32) :
    addf (Host.dotGeneral dot_S20000x512_S512x256_S20000x256_1_0_0_1_n_n none X W)
      (broadcastInDim S20000x256 ![0, 1] bcast_S1x256_S20000x256_0_1 (broadcastInDim S1x256 ![1] bcast_S256_S1x256_1 B))
    = Cert.Spec.lin X W B := by
  funext i
  show FloatOps.addf (Host.dotGeneral dot_S20000x512_S512x256_S20000x256_1_0_0_1_n_n none X W i) (broadcastInDim S20000x256 ![0, 1] bcast_S1x256_S20000x256_0_1 (broadcastInDim S1x256 ![1] bcast_S256_S1x256_1 B) i) = _
  rw [dot_v29_apply, bias20000_apply, Ideal.addf_def]
  rfl

/-- `emb_E_new @ W_e2v + b_e2v`. -/
theorem lin_v36 (X : FVec Ideal S20000x256 .f32) (W : FVec Ideal S256x256 .f32) (B : FVec Ideal S256 .f32) :
    addf (Host.dotGeneral dot_S20000x256_S256x256_S20000x256_1_0_0_1_n_n none X W)
      (broadcastInDim S20000x256 ![0, 1] bcast_S1x256_S20000x256_0_1 (broadcastInDim S1x256 ![1] bcast_S256_S1x256_1 B))
    = Cert.Spec.lin X W B := by
  funext i
  show FloatOps.addf (Host.dotGeneral dot_S20000x256_S256x256_S20000x256_1_0_0_1_n_n none X W i) (broadcastInDim S20000x256 ![0, 1] bcast_S1x256_S20000x256_0_1 (broadcastInDim S1x256 ![1] bcast_S256_S1x256_1 B) i) = _
  rw [dot_v33_apply, bias20000_apply, Ideal.addf_def]
  rfl

/-- A scalar constant broadcast to every entry, read at an index: the constant. -/
theorem const20000_apply (b : BitVec FTy.f32.bits) (j : S20000.Idx) :
    broadcastInDim S20000 ![] bcast_S_S20000 (constant (F := Ideal) S_ .f32 b) j = Ideal.ofBits .f32 b := by
  rw [broadcastInDim_apply _ bcast_S_S20000 _ j (fun a => a.elim0) (fun a => a.elim0)]
  rfl

/-- The same over the two-axis shape. -/
theorem const20000x256_apply (b : BitVec FTy.f32.bits) (j : S20000x256.Idx) :
    broadcastInDim S20000x256 ![] bcast_S_S20000x256 (constant (F := Ideal) S_ .f32 b) j = Ideal.ofBits .f32 b := by
  rw [broadcastInDim_apply _ bcast_S_S20000x256 _ j (fun a => a.elim0) (fun a => a.elim0)]
  rfl

/-- A vector of per-row values under its two broadcasts, read at `(r, q)`: the value of row `r`. -/
theorem cnt20000_apply (Y : FVec Ideal S20000 .f32) (i : S20000x256.Idx) :
    broadcastInDim S20000x256 ![0, 1] bcast_S20000x1_S20000x256_0_1 (broadcastInDim S20000x1 ![0] bcast_S20000_S20000x1_0 Y) i
      = Y (ValueIdx.ix1 (i 0)) := by
  rw [broadcastInDim_apply _ bcast_S20000x1_S20000x256_0_1 _ i (ValueIdx.ix2 (i 0) (0 : Fin 1)) (fun a => match a with
      | ⟨0, _⟩ => by show (i 0).val = if (20000 : Nat) = 1 then 0 else (i 0).val; rw [if_neg (by decide)]
      | ⟨1, _⟩ => by show 0 = if (1 : Nat) = 1 then 0 else (i 1).val; rw [if_pos rfl]),
    broadcastInDim_apply _ bcast_S20000_S20000x1_0 Y _ (ValueIdx.ix1 (i 0)) (fun a => match a with
      | ⟨0, _⟩ => by show (i 0).val = if (20000 : Nat) = 1 then 0 else (i 0).val; rw [if_neg (by decide)])]

/-- `relu (sums / max(cnt, 1)[:, None])` over the 20000 hyperedges. -/
theorem mean_v27 (S : FVec Ideal S20000x256 .f32) (C : FVec Ideal S20000 .f32) :
    maximumf (Host.divf S (broadcastInDim S20000x256 ![0, 1] bcast_S20000x1_S20000x256_0_1 (broadcastInDim S20000x1 ![0] bcast_S20000_S20000x1_0
        (maximumf C (broadcastInDim S20000 ![] bcast_S_S20000 (constant S_ .f32 0x3F800000#32))))))
      (broadcastInDim S20000x256 ![] bcast_S_S20000x256 (constant S_ .f32 0x00000000#32))
    = Cert.Spec.meanRelu S (Cert.Spec.col C) := by
  funext i
  show FloatOps.maximumf (FloatOps.hostDivf (S i) (broadcastInDim S20000x256 ![0, 1] bcast_S20000x1_S20000x256_0_1 (broadcastInDim S20000x1 ![0] bcast_S20000_S20000x1_0
        (maximumf C (broadcastInDim S20000 ![] bcast_S_S20000 (constant S_ .f32 0x3F800000#32)))) i))
      (broadcastInDim S20000x256 ![] bcast_S_S20000x256 (constant S_ .f32 0x00000000#32) i) = _
  rw [cnt20000_apply, const20000x256_apply]
  show FloatOps.maximumf (FloatOps.hostDivf (S i) (FloatOps.maximumf (C (ValueIdx.ix1 (i 0)))
        (broadcastInDim S20000 ![] bcast_S_S20000 (constant S_ .f32 0x3F800000#32) (ValueIdx.ix1 (i 0))))) _ = _
  rw [const20000_apply, Ideal.maximumf_def, Ideal.maximumf_def, Ideal.hostDivf_def]
  rfl

/-- A scalar constant broadcast to every entry, read at an index: the constant. -/
theorem const100000_apply (b : BitVec FTy.f32.bits) (j : S100000.Idx) :
    broadcastInDim S100000 ![] bcast_S_S100000 (constant (F := Ideal) S_ .f32 b) j = Ideal.ofBits .f32 b := by
  rw [broadcastInDim_apply _ bcast_S_S100000 _ j (fun a => a.elim0) (fun a => a.elim0)]
  rfl

/-- The same over the two-axis shape. -/
theorem const100000x256_apply (b : BitVec FTy.f32.bits) (j : S100000x256.Idx) :
    broadcastInDim S100000x256 ![] bcast_S_S100000x256 (constant (F := Ideal) S_ .f32 b) j = Ideal.ofBits .f32 b := by
  rw [broadcastInDim_apply _ bcast_S_S100000x256 _ j (fun a => a.elim0) (fun a => a.elim0)]
  rfl

/-- A vector of per-row values under its two broadcasts, read at `(r, q)`: the value of row `r`. -/
theorem cnt100000_apply (Y : FVec Ideal S100000 .f32) (i : S100000x256.Idx) :
    broadcastInDim S100000x256 ![0, 1] bcast_S100000x1_S100000x256_0_1 (broadcastInDim S100000x1 ![0] bcast_S100000_S100000x1_0 Y) i
      = Y (ValueIdx.ix1 (i 0)) := by
  rw [broadcastInDim_apply _ bcast_S100000x1_S100000x256_0_1 _ i (ValueIdx.ix2 (i 0) (0 : Fin 1)) (fun a => match a with
      | ⟨0, _⟩ => by show (i 0).val = if (100000 : Nat) = 1 then 0 else (i 0).val; rw [if_neg (by decide)]
      | ⟨1, _⟩ => by show 0 = if (1 : Nat) = 1 then 0 else (i 1).val; rw [if_pos rfl]),
    broadcastInDim_apply _ bcast_S100000_S100000x1_0 Y _ (ValueIdx.ix1 (i 0)) (fun a => match a with
      | ⟨0, _⟩ => by show (i 0).val = if (100000 : Nat) = 1 then 0 else (i 0).val; rw [if_neg (by decide)])]

/-- `relu (sums / max(cnt, 1)[:, None])` over the 100000 nodes. -/
theorem mean_v56 (S : FVec Ideal S100000x256 .f32) (C : FVec Ideal S100000 .f32) :
    maximumf (Host.divf S (broadcastInDim S100000x256 ![0, 1] bcast_S100000x1_S100000x256_0_1 (broadcastInDim S100000x1 ![0] bcast_S100000_S100000x1_0
        (maximumf C (broadcastInDim S100000 ![] bcast_S_S100000 (constant S_ .f32 0x3F800000#32))))))
      (broadcastInDim S100000x256 ![] bcast_S_S100000x256 (constant S_ .f32 0x00000000#32))
    = Cert.Spec.meanRelu S (Cert.Spec.col C) := by
  funext i
  show FloatOps.maximumf (FloatOps.hostDivf (S i) (broadcastInDim S100000x256 ![0, 1] bcast_S100000x1_S100000x256_0_1 (broadcastInDim S100000x1 ![0] bcast_S100000_S100000x1_0
        (maximumf C (broadcastInDim S100000 ![] bcast_S_S100000 (constant S_ .f32 0x3F800000#32)))) i))
      (broadcastInDim S100000x256 ![] bcast_S_S100000x256 (constant S_ .f32 0x00000000#32) i) = _
  rw [cnt100000_apply, const100000x256_apply]
  show FloatOps.maximumf (FloatOps.hostDivf (S i) (FloatOps.maximumf (C (ValueIdx.ix1 (i 0)))
        (broadcastInDim S100000 ![] bcast_S_S100000 (constant S_ .f32 0x3F800000#32) (ValueIdx.ix1 (i 0))))) _ = _
  rw [const100000_apply, Ideal.maximumf_def, Ideal.maximumf_def, Ideal.hostDivf_def]
  rfl

end Cert.ReferenceIdeal.Hand

end
-- ==== Proof.RefVal.lean ====
/-
  The reference's two results as closed terms over the spec functions. Its run ends with each result at the composed
  term of its host operations; the dense layers in that term are `Spec.lin` and the two means `Spec.meanRelu` of the
  segment sums and the counts column, so the results are: the fused hyperedge features
  `E = lin [emb_E | meanRelu (Σ_dst rows_src(h)) cnt_dst] W_fuse b_fuse` with `h = lin emb_V W_v2e b_v2e`, and the node features
  `meanRelu (Σ_src rows_dst(g)) cnt_src` with `g = lin E W_e2v b_e2v`, the gathers and segment sums the host's own.
-/
import proofs.«422035_j30425548324932_1_alg».proof.ReferenceIdeal
import proofs.«422035_j30425548324932_1_alg».proof.Proof.Gen.ReferenceIdeal
import proofs.«422035_j30425548324932_1_alg».proof.Proof.Gen.ReferenceIdeal.Run
import proofs.«422035_j30425548324932_1_alg».proof.Proof.Spec
import proofs.«422035_j30425548324932_1_alg».proof.Proof.RefSide

set_option maxRecDepth 16384

noncomputable section

open Idealize.ShloMosaic Idealize.ShloMosaic.TcCoe Idealize.SL.Sem

namespace Cert.ReferenceIdeal.Hand

open Cert.ReferenceIdeal Cert.ReferenceIdeal.Gen

/-- Row 0 of the edge list (node ids) and row 1 (hyperedge ids), as the program slices them. -/
abbrev srcOf (a2 : IVec S2x300000 32) : IVec S300000 32 :=
  shapeCast S300000 (extractStridedSlice S1x300000 ![0, 0] a2 slices_S2x300000_S1x300000_0_0) shapeCasts_S1x300000_S300000
abbrev dstOf (a2 : IVec S2x300000 32) : IVec S300000 32 :=
  shapeCast S300000 (extractStridedSlice S1x300000 ![1, 0] a2 slices_S2x300000_S1x300000_1_0) shapeCasts_S1x300000_S300000

/-- The index column a gather of an `N`-row table reads: a negative id moved up by `N`, any other id itself. -/
abbrev idxCol (N : BitVec 32) (ids : IVec S300000 32) : IVec S300000x1 32 :=
  broadcastInDim S300000x1 ![0] bcast_S300000_S300000x1_0
    (select (cmpi .slt ids (broadcastInDim S300000 ![] bcast_S_S300000 (constantI S_ 32 0#32)))
      (addi ids (broadcastInDim S300000 ![] bcast_S_S300000 (constantI S_ 32 N))) ids)

/-- One per edge. -/
abbrev onesE : FVec Ideal S300000 .f32 := broadcastInDim S300000 ![] bcast_S_S300000 (constant S_ .f32 0x3F800000#32)

/-- The edges' rows summed into their hyperedge's row, and the edges counted per hyperedge. -/
abbrev sumE (dst : IVec S300000 32) (rows : FVec Ideal S300000x256 .f32) : FVec Ideal S20000x256 .f32 :=
  Host.scatterAdd scatter_S20000x256_S300000x1_S300000x256_1_0_0_1
    (broadcastInDim S20000x256 ![] bcast_S_S20000x256 (constant S_ .f32 0x00000000#32))
    (broadcastInDim S300000x1 ![0] bcast_S300000_S300000x1_0 dst) rows
abbrev cntE (dst : IVec S300000 32) (ones : FVec Ideal S300000 .f32) : FVec Ideal S20000 .f32 :=
  Host.scatterAdd scatter_S20000_S300000x1_S300000_n_0_0_1
    (broadcastInDim S20000 ![] bcast_S_S20000 (constant S_ .f32 0x00000000#32))
    (broadcastInDim S300000x1 ![0] bcast_S300000_S300000x1_0 dst) ones

/-- The edges' rows summed into their node's row, and the edges counted per node. -/
abbrev sumV (src : IVec S300000 32) (rows : FVec Ideal S300000x256 .f32) : FVec Ideal S100000x256 .f32 :=
  Host.scatterAdd scatter_S100000x256_S300000x1_S300000x256_1_0_0_1
    (broadcastInDim S100000x256 ![] bcast_S_S100000x256 (constant S_ .f32 0x00000000#32))
    (broadcastInDim S300000x1 ![0] bcast_S300000_S300000x1_0 src) rows
abbrev cntV (src : IVec S300000 32) (ones : FVec Ideal S300000 .f32) : FVec Ideal S100000 .f32 :=
  Host.scatterAdd scatter_S100000_S300000x1_S300000_n_0_0_1
    (broadcastInDim S100000 ![] bcast_S_S100000 (constant S_ .f32 0x00000000#32))
    (broadcastInDim S300000x1 ![0] bcast_S300000_S300000x1_0 src) ones

variable (m : (ℓ : Loc nD τ sig) → Buf (Elt Ideal) ℓ)

/-- `h = emb_V · W_v2e + b_v2e`. -/
def refH (c : Dev nD) : FVec Ideal S100000x256 .f32 :=
  Cert.Spec.lin (m ((c.tc : Thread nD τ).loc main_arg0)) (m ((c.tc : Thread nD τ).loc main_arg3)) (m ((c.tc : Thread nD τ).loc main_arg4))

/-- The first hop: the mean over each hyperedge's edges of the node rows, its positive part. -/
def refETmp (c : Dev nD) : FVec Ideal S20000x256 .f32 :=
  Cert.Spec.meanRelu
    (sumE (dstOf (m ((c.tc : Thread nD τ).loc main_arg2)))
      (Host.gather gather_S100000x256_S300000x1_S300000x256_1_0_n_n_0_1_1256 (refH m c) (idxCol 100000#32 (srcOf (m ((c.tc : Thread nD τ).loc main_arg2))))))
    (Cert.Spec.col (cntE (dstOf (m ((c.tc : Thread nD τ).loc main_arg2))) onesE))

/-- The fused hyperedge features `[emb_E | e_tmp] · W_fuse + b_fuse`: the program's second result. -/
def refE (c : Dev nD) : FVec Ideal S20000x256 .f32 :=
  Cert.Spec.lin
    (concatenate S20000x512 1 [⟨S20000x256, m ((c.tc : Thread nD τ).loc main_arg1)⟩, ⟨S20000x256, refETmp m c⟩] concatenates_S20000x256_S20000x256_S20000x512_d1)
    (m ((c.tc : Thread nD τ).loc main_arg5)) (m ((c.tc : Thread nD τ).loc main_arg6))

/-- `g = emb_E_new · W_e2v + b_e2v`. -/
def refG (c : Dev nD) : FVec Ideal S20000x256 .f32 :=
  Cert.Spec.lin (refE m c) (m ((c.tc : Thread nD τ).loc main_arg7)) (m ((c.tc : Thread nD τ).loc main_arg8))

/-- The second hop: the mean over each node's edges of the hyperedge rows, its positive part: the program's first result. -/
def refV (c : Dev nD) : FVec Ideal S100000x256 .f32 :=
  Cert.Spec.meanRelu
    (sumV (srcOf (m ((c.tc : Thread nD τ).loc main_arg2)))
      (Host.gather gather_S20000x256_S300000x1_S300000x256_1_0_n_n_0_1_1256 (refG m c) (idxCol 20000#32 (dstOf (m ((c.tc : Thread nD τ).loc main_arg2))))))
    (Cert.Spec.col (cntV (srcOf (m ((c.tc : Thread nD τ).loc main_arg2))) onesE))

/-- The reference's run, its two results at the closed terms, the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v56) = refV m c
      ∧ r.2.mem ((c.tc : Thread nD τ).loc main_v32) = refE m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun _ h c => ⟨(h c).1.trans ?_, (h c).2.1.trans ?_, (h c).2.2⟩) (Cert.ReferenceIdeal.Value.run (F := Ideal) m ρ)
  · unfold Cert.ReferenceIdeal.Value.res_main_v56
    rw [lin_v7, mean_v27, lin_v32, lin_v36, mean_v56]
    rfl
  · rw [lin_v7, mean_v27, lin_v32]
    rfl

end Cert.ReferenceIdeal.Hand

end
-- ==== Proof.Bridge.lean ====
/-
  The two sides meet. Both programs' results are now the same closed terms — dense layers `Spec.lin`, means
  `Spec.meanRelu`, and between them the host's own slice, gather, segment sum and join, which both programs print alike
  (each with its own copy of the operation's dimension record: equal records). So from memories that agree on the nine
  arguments the reference's `h`, first-hop mean, fused features `E`, `g` and node features are the kernel's, one after the
  other, each step a rewrite of the arguments and of the step before.
-/
import proofs.«422035_j30425548324932_1_alg».proof.Proof.KVal
import proofs.«422035_j30425548324932_1_alg».proof.Proof.RefVal

set_option maxRecDepth 16384

noncomputable section

open Idealize.ShloMosaic Idealize.ShloMosaic.TcCoe Idealize.SL.Sem

namespace Cert.Bridge

open Cert.KernelIdeal.Hand (kerH kerETmp kerE kerG kerV)
open Cert.ReferenceIdeal.Hand (refH refETmp refE refG refV)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (hagree : ∀ c : Dev Cert.KernelIdeal.nD,
      (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0))
      ∧ (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1))
      ∧ (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2))
      ∧ (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3))
      ∧ (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4))
      ∧ (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5))
      ∧ (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6))
      ∧ (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7))
      ∧ (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8)))
include hagree

theorem h_eq (c : Dev Cert.KernelIdeal.nD) : refH m' c = kerH m c := by
  unfold refH kerH
  rw [(hagree c).1, (hagree c).2.2.2.1, (hagree c).2.2.2.2.1]

theorem etmp_eq (c : Dev Cert.KernelIdeal.nD) : refETmp m' c = kerETmp m c := by
  unfold refETmp kerETmp
  rw [h_eq m m' hagree c, (hagree c).2.2.1]
  rfl

theorem e_eq (c : Dev Cert.KernelIdeal.nD) : refE m' c = kerE m c := by
  unfold refE kerE
  rw [etmp_eq m m' hagree c, (hagree c).2.1, (hagree c).2.2.2.2.2.1, (hagree c).2.2.2.2.2.2.1]

theorem g_eq (c : Dev Cert.KernelIdeal.nD) : refG m' c = kerG m c := by
  unfold refG kerG
  rw [e_eq m m' hagree c, (hagree c).2.2.2.2.2.2.2.1, (hagree c).2.2.2.2.2.2.2.2]

theorem v_eq (c : Dev Cert.KernelIdeal.nD) : refV m' c = kerV m c := by
  unfold refV kerV
  rw [g_eq m m' hagree c, (hagree c).2.2.1]
  rfl

end Cert.Bridge

end
-- ==== Proof.PreRange.lean ====
/-
  What the precondition says of the edge list. Its last two conjuncts are `all (0 ≤ edge_index[0] < 100000)` and
  `all (0 ≤ edge_index[1] < 20000)`: the printed predicate is a chain of `and`s whose last two links are those two
  reductions, so from "the predicate is one" each of them is one, and an `and`-reduction that is one has every entry one.
  Read at an entry `e`: row 0 of the edge list (node ids) is a signed word at least 0 and below 100000, row 1
  (hyperedge ids) at least 0 and below 20000.
-/
import proofs.«422035_j30425548324932_1_alg».proof.Pre_finite_inputs
import proofs.«422035_j30425548324932_1_alg».proof.Proof.Gen.Pre_finite_inputs
import Idealize.ShloMosaic.Lib.ReduceAll
import Idealize.ShloMosaic.Lib.StableHlo.Predicate

noncomputable section

open Idealize.ShloMosaic

namespace Cert.Pre_finite_inputs.Hand

open Cert.Pre_finite_inputs Cert.Pre_finite_inputs.Gen

variable {F : FTy → Type} [FloatOps F]

/-- Row `r` of the edge list as a vector of 300000 words, as both programs and the predicate spell it. -/
abbrev row0 (a2 : IVec S2x300000 32) : IVec S300000 32 :=
  shapeCast S300000 (extractStridedSlice S1x300000 ![0, 0] a2 slices_S2x300000_S1x300000_0_0) shapeCasts_S1x300000_S300000
abbrev row1 (a2 : IVec S2x300000 32) : IVec S300000 32 :=
  shapeCast S300000 (extractStridedSlice S1x300000 ![1, 0] a2 slices_S2x300000_S1x300000_1_0) shapeCasts_S1x300000_S300000

/-- The scalar shape has exactly one index: an index of rank 0 is a function on the empty set. -/
theorem scalarIdx_subsingleton : Subsingleton S_.Idx := ⟨fun a b => funext fun d => d.elim0⟩

/-- `all (0 ≤ x < c)` over a vector of 300000 signed words, as the predicate spells it: the two compares against
    broadcast scalars, their pointwise `and`, then the `and`-reduction from 1 over the one axis. -/
abbrev allRange (x : IVec S300000 32) (c : BitVec 32) : IVec S_ 1 :=
  Host.reduce IntOp.andi
    (andi (cmpi .sge x (broadcastInDim S300000 ![] bcast_S_S300000 (constantI S_ 32 0#32)))
          (cmpi .slt x (broadcastInDim S300000 ![] bcast_S_S300000 (constantI S_ 32 c))))
    (constantI S_ 1 1#1) reducesTo_S300000_S_d0 h_S_

/-- If that reduction is one then every entry is at least 0 and below `c`: an `and`-reduction into a result of one
    index that is one had a one at every entry; the entry at `e` is the `and` of the two compares of `x e` with the
    scalars (a broadcast scalar reads the scalar at every index, a constant is its word), and an `and` of two bits
    that is one has both bits one. -/
theorem allRange_entry (x : IVec S300000 32) (c : BitVec 32) (j : S_.Idx) (h : allRange x c j = 1#1) (e : S300000.Idx) :
    IntOp.cmpi .sge (x e) 0#32 = 1#1 ∧ IntOp.cmpi .slt (x e) c = 1#1 :=
  haveI := scalarIdx_subsingleton
  IntOp.andi_eq_one.1 (Host.reduce_andi_all _ _ _ _ j h e)

/-- The predicate is `(p ∧ all (0 ≤ row 0 < 100000)) ∧ all (0 ≤ row 1 < 20000)`, with `p` the conjunction of all the
    conjuncts before them (the finiteness of the float inputs), kept as one unopened bit: unfolding the chain of
    `let`s gives exactly this term. -/
theorem fn_split (a0 : FVec F S100000x256 .f32) (a1 : FVec F S20000x256 .f32) (a2 : IVec S2x300000 32) (a3 : FVec F S256x256 .f32)
    (a4 : FVec F S256 .f32) (a5 : FVec F S512x256 .f32) (a6 : FVec F S256 .f32) (a7 : FVec F S256x256 .f32) (a8 : FVec F S256 .f32) :
    ∃ p : IVec S_ 1, fn (F := F) a0 a1 a2 a3 a4 a5 a6 a7 a8
      = andi (andi p (allRange (row0 a2) 100000#32)) (allRange (row1 a2) 20000#32) :=
  ⟨_, rfl⟩

/-- Under the precondition every node id is in `[0, 100000)` and every hyperedge id in `[0, 20000)`. -/
theorem ranges (a0 : FVec F S100000x256 .f32) (a1 : FVec F S20000x256 .f32) (a2 : IVec S2x300000 32) (a3 : FVec F S256x256 .f32)
    (a4 : FVec F S256 .f32) (a5 : FVec F S512x256 .f32) (a6 : FVec F S256 .f32) (a7 : FVec F S256x256 .f32) (a8 : FVec F S256 .f32)
    (h : fn (F := F) a0 a1 a2 a3 a4 a5 a6 a7 a8 = fun _ => 1#1) :
    (∀ e : S300000.Idx, IntOp.cmpi .sge (row0 a2 e) 0#32 = 1#1 ∧ IntOp.cmpi .slt (row0 a2 e) 100000#32 = 1#1)
    ∧ (∀ e : S300000.Idx, IntOp.cmpi .sge (row1 a2 e) 0#32 = 1#1 ∧ IntOp.cmpi .slt (row1 a2 e) 20000#32 = 1#1) := by
  -- the predicate as `(p ∧ src) ∧ dst`, read at the one scalar index
  obtain ⟨p, hp⟩ := fn_split a0 a1 a2 a3 a4 a5 a6 a7 a8
  have j : S_.Idx := fun d => d.elim0
  have h0 : IntOp.andi (IntOp.andi (p j) (allRange (row0 a2) 100000#32 j)) (allRange (row1 a2) 20000#32 j) = 1#1 :=
    congrFun (hp.symm.trans h) j
  -- an `and` that is one has both sides one: first the last link, then the one before it
  obtain ⟨h1, hdst⟩ := IntOp.andi_eq_one.1 h0
  obtain ⟨-, hsrc⟩ := IntOp.andi_eq_one.1 h1
  exact ⟨allRange_entry _ _ _ hsrc, allRange_entry _ _ _ hdst⟩

end Cert.Pre_finite_inputs.Hand

end
-- ==== Proof.RegionLin0.lean ====
/-
  The first dense layer, `h = emb_V · W_v2e + b_v2e`, as ONE array: the region walks the 100000 rows in 50 blocks of 2000,
  each point multiplying its 2000 × 256 block of rows by the whole 256 × 256 weight and adding the bias row, and writes the
  block back; the blocks tile the rows, so after the last point the output array holds `Spec.lin` of the three input arrays
  as the region found them.
-/
import proofs.«422035_j30425548324932_1_alg».proof.Proof.Gen.KernelIdeal.Frame
import proofs.«422035_j30425548324932_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen
open Idealize.ShloMosaic.ValueIdx

namespace Lin0

/-! ## The body's value at one entry of its block -/

/-- On the left operand's row axis the product reads the output's row. -/
theorem lhs_row (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
/-- On the left operand's inner axis it reads the summation index. -/
theorem lhs_inner (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
/-- On the right operand's inner axis it reads the summation index. -/
theorem rhs_inner (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
/-- On the right operand's column axis it reads the output's column. -/
theorem rhs_col (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The product of a block of rows with the weight, from a zero accumulator, at entry `(p, q)`: row `p` against column `q`. -/
theorem mm_apply (x0 : Vec Ideal S2000x256 .f32) (x1 : Vec Ideal S256x256 .f32) (p : Fin 2000) (q : Fin 256) :
    matmul (F := Ideal) (φ₁ := .f32) (φ₂ := .f32) dot_S2000x256_S256x256_S2000x256_1_0_0_1_n_n none x0 x1 (constant S2000x256 .f32 0x00000000#32) (ix2 p q)
      = ∑ k : Fin 256, x0 (ix2 p k) * x1 (ix2 k q) := by
  refine (Ideal.matmul_constant_zero_apply dot_S2000x256_S256x256_S2000x256_1_0_0_1_n_n none x0 x1 (ix2 p q)).trans ?_
  rw [← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx (ix2 p q) ((ValueIdx.contrEquiv1 dot_S2000x256_S256x256_S2000x256_1_0_0_1_n_n 256 rfl rfl).symm k) = ix2 p k := funext fun a => Fin.ext (by
    match a with
    | ⟨0, _⟩ => exact lhs_row _ _
    | ⟨1, _⟩ => exact (lhs_inner _ _).trans hk)
  have er : dot_S2000x256_S256x256_S2000x256_1_0_0_1_n_n.rhsIdx (ix2 p q) ((ValueIdx.contrEquiv1 dot_S2000x256_S256x256_S2000x256_1_0_0_1_n_n 256 rfl rfl).symm k) = ix2 k q := funext fun a => Fin.ext (by
    match a with
    | ⟨0, _⟩ => exact (rhs_inner _ _).trans hk
    | ⟨1, _⟩ => exact rhs_col _ _)
  rw [el, er]

/-- The bias as a one-row array, repeated down the rows, at entry `(p, q)`: bias entry `q`. -/
theorem bias_apply (x2 : Vec Ideal S256 .f32) (p : Fin 2000) (q : Fin 256) :
    broadcastTo S2000x256 (shapeCast S1x256 x2 shapeCasts_S256_S1x256) broadcasts_S1x256_S2000x256 (ix2 p q) = x2 (ix1 q) :=
  (broadcastTo_1b_ab_apply _ broadcasts_S1x256_S2000x256 p q).trans (shapeCast_a_1a_apply x2 shapeCasts_S256_S1x256 0 q)

/-- The body's stored value at entry `(p, q)` of its block: row `p` of the block of rows against column `q` of the
    weight, plus bias entry `q`. -/
theorem pay_apply (x0 : Vec Ideal S2000x256 .f32) (x1 : Vec Ideal S256x256 .f32) (x2 : Vec Ideal S256 .f32) (p : Fin 2000) (q : Fin 256) :
    k0_pay1 (F := Ideal) x0 x1 x2 (ix2 p q) = (∑ k : Fin 256, x0 (ix2 p k) * x1 (ix2 k q)) + x2 (ix1 q) := by
  unfold k0_pay1
  show matmul (F := Ideal) (φ₁ := .f32) (φ₂ := .f32) dot_S2000x256_S256x256_S2000x256_1_0_0_1_n_n none x0 x1 (constant S2000x256 .f32 0x00000000#32) (ix2 p q)
      + broadcastTo S2000x256 (shapeCast S1x256 x2 shapeCasts_S256_S1x256) broadcasts_S1x256_S2000x256 (ix2 p q) = _
  rw [mm_apply, bias_apply]

/-- The dense layer at entry `(r, q)`, its coordinates named. -/
theorem lin_at {M K : Nat} (X : FVec Ideal ⟨2, ![M, K]⟩ .f32) (W : FVec Ideal ⟨2, ![K, 256]⟩ .f32) (B : FVec Ideal ⟨1, ![256]⟩ .f32)
    (r : Fin M) (q : Fin 256) :
    Cert.Spec.lin X W B (ix2 r q) = (∑ k : Fin K, X (ix2 r k) * W (ix2 k q)) + B (ix1 q) := rfl

/-! ## The blocks the region's points read and write -/

/- the buffer contents the region is entered with: any -/
variable (V : (c : Dev nD) → (b : Ref sig .tc) → Buf (Elt Ideal) ((c : Thread nD τ).loc b))

/-- The zero offsets of a rank-2 block, as the constant function. -/
theorem hz2 : (![0, 0] : Fin 2 → Nat) = fun _ => 0 := funext fun a => by fin_cases a <;> rfl
/-- The zero offset of a rank-1 block, as the constant function. -/
theorem hz1 : (![0] : Fin 1 → Nat) = fun _ => 0 := funext fun a => by fin_cases a <;> rfl

/-- The index maps over the 50 points: point `t` reads and writes row block `t` (column block 0); the weight and the
    bias are one block each, the same at every point. -/
theorem idx_facts : ∀ t : Fin cfg0.N, win0_3.index t (0 : Fin 2) = t.val ∧ win0_3.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 1) = 0 :=
  (by decide +kernel : ∀ t : Fin grid0.N, _)

/-- The rows' block at point `t` is rows `2000 t … 2000 t + 1999` of the rows' array. -/
theorem rows_blk (c : Dev nD) (t : Fin cfg0.N) (x : S2000x256.Idx) (k : S100000x256.Idx)
    (hk0 : (k 0).val = t.val * 2000 + (x 0).val) (hk1 : (k 1).val = (x 1).val) :
    (iblk0 V c 0 t : Vec Ideal S2000x256 .f32) x = (V c main_arg0 : S100000x256.Idx → Elt Ideal .f32) k := by
  obtain ⟨-, -, e0, e1, -, -, -⟩ := idx_facts t
  unfold iblk0
  rw [View.read_apply]
  show V c main_arg0 _ = V c main_arg0 _
  congr 1
  funext a
  apply Fin.ext
  match a with
  | ⟨0, _⟩ => show win0_0.index t (0 : Fin 2) * 2000 + 1 * (x 0).val = (k 0).val; rw [e0, hk0]; omega
  | ⟨1, _⟩ => show win0_0.index t (1 : Fin 2) * 256 + 1 * (x 1).val = (k 1).val; rw [e1, hk1]; omega

/-- The weight's block at every point is the whole weight. -/
theorem weight_blk (c : Dev nD) (t : Fin cfg0.N) (x : S256x256.Idx) :
    (iblk0 V c 1 t : Vec Ideal S256x256 .f32) x = (V c main_arg3 : S256x256.Idx → Elt Ideal .f32) x := by
  obtain ⟨-, -, -, -, e0, e1, -⟩ := idx_facts t
  unfold iblk0
  rw [View.read_apply]
  show V c main_arg3 _ = V c main_arg3 _
  congr 1
  funext a
  apply Fin.ext
  match a with
  | ⟨0, _⟩ => show win0_1.index t (0 : Fin 2) * 256 + 1 * (x 0).val = (x 0).val; rw [e0]; omega
  | ⟨1, _⟩ => show win0_1.index t (1 : Fin 2) * 256 + 1 * (x 1).val = (x 1).val; rw [e1]; omega

/-- The bias's block at every point is the whole bias. -/
theorem bias_blk (c : Dev nD) (t : Fin cfg0.N) (x : S256.Idx) :
    (iblk0 V c 2 t : Vec Ideal S256 .f32) x = (V c main_arg4 : S256.Idx → Elt Ideal .f32) x := by
  obtain ⟨-, -, -, -, -, -, e0⟩ := idx_facts t
  unfold iblk0
  rw [View.read_apply]
  show V c main_arg4 _ = V c main_arg4 _
  congr 1
  funext a
  apply Fin.ext
  match a with
  | ⟨0, _⟩ => show win0_2.index t (0 : Fin 1) * 256 + 1 * (x 0).val = (x 0).val; rw [e0]; omega

/-- WHAT POINT `t` WRITES BACK is block `t` of the dense layer of the three arrays as the region finds them. -/
theorem flushed_eq (c : Dev nD) (t : Fin cfg0.N) :
    (dat0 (F := Ideal) V c).flushed 3 t = ((cfg0.win 3).blk t).view.read (Elt Ideal)
      (Cert.Spec.lin (M := 100000) (K := 256) (V c main_arg0) (V c main_arg3) (V c main_arg4)) := by
  show (cfg0.win 3).cut (grid0.coords t) ((dat0 (F := Ideal) V c).after 3 t) = _
  rw [after0_3]
  unfold out0_3
  rw [View.canon_unit_zero hz2]
  simp only [View.ld_unit_zero (S := S2000x256) hz2, View.ld_unit_zero (S := S256x256) hz2, View.ld_unit_zero (S := S256) hz1]
  obtain ⟨e0, e1, -, -, -, -, -⟩ := idx_facts t
  funext j
  obtain ⟨p, q, rfl⟩ : ∃ (p : Fin 2000) (q : Fin 256), j = ValueIdx.ix2 p q := ⟨j 0, j 1, ValueIdx.eq_ix2 j⟩
  show k0_pay1 (F := Ideal) (iblk0 V c 0 t) (iblk0 V c 1 t) (iblk0 V c 2 t) (ix2 p q)
    = Cert.Spec.lin (M := 100000) (K := 256) (V c main_arg0) (V c main_arg3) (V c main_arg4) (((cfg0.win 3).blk t).view.emb (ix2 p q))
  refine (pay_apply _ _ _ p q).trans ?_
  have h50 : t.val < 50 := lt_of_lt_of_eq t.isLt N_0
  have hlt : t.val * 2000 + p.val < 100000 := by omega
  have hi : ((cfg0.win 3).blk t).view.emb (ix2 p q) = (ix2 (⟨t.val * 2000 + p.val, hlt⟩ : Fin 100000) q : S100000x256.Idx) := by
    funext a; apply Fin.ext
    match a with
    | ⟨0, _⟩ => show win0_3.index t (0 : Fin 2) * 2000 + 1 * p.val = t.val * 2000 + p.val; rw [e0]; omega
    | ⟨1, _⟩ => show win0_3.index t (1 : Fin 2) * 256 + 1 * q.val = q.val; rw [e1]; omega
  rw [hi]
  refine Eq.trans ?_ (lin_at _ _ _ _ _).symm
  refine congrArg₂ _ (Finset.sum_congr rfl fun k _ => ?_) ?_
  · rw [rows_blk V c t (ix2 p k) (ix2 (⟨t.val * 2000 + p.val, hlt⟩ : Fin 100000) k) rfl rfl, weight_blk]
  · exact bias_blk V c t (ix1 q)

/-- An index of the output array is in point `t`'s block iff each coordinate is in the block's range on its axis. -/
theorem mem_blk (t : Fin cfg0.N) (i : S100000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v4).slice (win0_3.rect t)).set ↔ _
  rw [View.set_slice_whole, Rect.mem_set_unit]
  exact Iff.rfl

/-- The 50 blocks tile the rows: row `r` is in the block of point `r / 2000`. -/
theorem cover (i : S100000x256.Idx) : ∃ t : Fin cfg0.N, (cfg0.win 3).flush t = true ∧ i ∈ ((cfg0.win 3).blk t).view.set := by
  have hi0 : (i 0).val < 100000 := (i 0).isLt
  have hi1 : (i 1).val < 256 := (i 1).isLt
  have hN : (i 0).val / 2000 < cfg0.N := lt_of_lt_of_eq (show (i 0).val / 2000 < 50 by omega) N_0.symm
  obtain ⟨e0, e1, -, -, -, -, -⟩ := idx_facts ⟨(i 0).val / 2000, hN⟩
  refine ⟨⟨(i 0).val / 2000, hN⟩, flush0_3 _, ?_⟩
  rw [mem_blk]
  intro a
  match a with
  | ⟨0, _⟩ =>
    show win0_3.index ⟨(i 0).val / 2000, hN⟩ (0 : Fin 2) * 2000 ≤ (i 0).val ∧ (i 0).val < win0_3.index ⟨(i 0).val / 2000, hN⟩ (0 : Fin 2) * 2000 + 2000
    rw [e0]
    show (i 0).val / 2000 * 2000 ≤ (i 0).val ∧ (i 0).val < (i 0).val / 2000 * 2000 + 2000
    omega
  | ⟨1, _⟩ =>
    show win0_3.index ⟨(i 0).val / 2000, hN⟩ (1 : Fin 2) * 256 ≤ (i 1).val ∧ (i 1).val < win0_3.index ⟨(i 0).val / 2000, hN⟩ (1 : Fin 2) * 256 + 256
    rw [e1]; omega

end Lin0

/- the buffer contents the region is entered with: any -/
variable (V : (c : Dev nD) → (b : Ref sig .tc) → Buf (Elt Ideal) ((c : Thread nD τ).loc b))

/-- After the region's last point its output array is that function of its input arrays. -/
theorem lin0 (c : Dev nD) :
    (dat0 (F := Ideal) V c).arrAt 3 cfg0.N = Cert.Spec.lin (M := 100000) (K := 256) (V c main_arg0) (V c main_arg3) (V c main_arg4) :=
  (dat0 (F := Ideal) V c).arrAt_eq_of_cover 3 (Cert.Spec.lin (M := 100000) (K := 256) (V c main_arg0) (V c main_arg3) (V c main_arg4))
    (fun t _ => Lin0.flushed_eq V c t) Lin0.cover

end Cert.KernelIdeal.Hand

end
-- ==== Proof.RegionLin2.lean ====
/-
  The fusing layer, `[emb_E | e_tmp] · W_fuse + b_fuse`, as ONE array: 10 blocks of 2000 rows of the 20000 × 512 joined array
  against the whole 512 × 256 weight, plus the bias row; the blocks tile the rows.
-/
import proofs.«422035_j30425548324932_1_alg».proof.Proof.Gen.KernelIdeal.Frame
import proofs.«422035_j30425548324932_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen
open Idealize.ShloMosaic.ValueIdx

namespace Lin2

theorem hz : (![0, 0] : Fin 2 → Nat) = fun _ => 0 := funext fun a => by
  match a with
  | ⟨0, _⟩ => rfl
  | ⟨1, _⟩ => rfl

theorem hz1 : (![0] : Fin 1 → Nat) = fun _ => 0 := funext fun a => by
  match a with
  | ⟨0, _⟩ => rfl

/-! ## The contraction's operand indices, axis by axis -/

/-- The left operand is read at the output's row … -/
theorem lhs_0 (i : S2000x256.Idx) (q : dot_S2000x512_S512x256_S2000x256_1_0_0_1_n_n.contr.Idx) :
    (dot_S2000x512_S512x256_S2000x256_1_0_0_1_n_n.lhsIdx i q 0).val = (i 0).val := by
  unfold DotDims.lhsIdx
  rw [dif_neg (show ¬(0 : Fin S2000x512.rank) ∈ dot_S2000x512_S512x256_S2000x256_1_0_0_1_n_n.lhsBatch by decide), dif_pos (show (0 : Fin S2000x512.rank) ∈ dot_S2000x512_S512x256_S2000x256_1_0_0_1_n_n.lhsNonContracting by decide)]
  rfl
/-- … and at the contraction's one coordinate along its columns; -/
theorem lhs_1 (i : S2000x256.Idx) (q : dot_S2000x512_S512x256_S2000x256_1_0_0_1_n_n.contr.Idx) :
    (dot_S2000x512_S512x256_S2000x256_1_0_0_1_n_n.lhsIdx i q 1).val = (q ⟨0, by decide⟩).val :=
  dot_S2000x512_S512x256_S2000x256_1_0_0_1_n_n.lhsIdx_val_of_single rfl i q
/-- the right operand at the contraction's coordinate along its rows … -/
theorem rhs_0 (i : S2000x256.Idx) (q : dot_S2000x512_S512x256_S2000x256_1_0_0_1_n_n.contr.Idx) :
    (dot_S2000x512_S512x256_S2000x256_1_0_0_1_n_n.rhsIdx i q 0).val = (q ⟨0, by decide⟩).val :=
  dot_S2000x512_S512x256_S2000x256_1_0_0_1_n_n.rhsIdx_val_of_single rfl i q
/-- … and at the output's column. -/
theorem rhs_1 (i : S2000x256.Idx) (q : dot_S2000x512_S512x256_S2000x256_1_0_0_1_n_n.contr.Idx) :
    (dot_S2000x512_S512x256_S2000x256_1_0_0_1_n_n.rhsIdx i q 1).val = (i 1).val := by
  unfold DotDims.rhsIdx
  rw [dif_neg (show ¬(1 : Fin S512x256.rank) ∈ dot_S2000x512_S512x256_S2000x256_1_0_0_1_n_n.rhsBatch by decide), dif_pos (show (1 : Fin S512x256.rank) ∈ dot_S2000x512_S512x256_S2000x256_1_0_0_1_n_n.rhsNonContracting by decide)]
  rfl

/-! ## One point's block of the output, entry by entry -/

/-- The product into the zero accumulator at row `p`, column `q`: row `p` of the left block against column `q` of the
    weight, summed over the 512 inner positions. -/
theorem dot_apply (x : FVec Ideal S2000x512 .f32) (w : FVec Ideal S512x256 .f32) (p : Fin 2000) (q : Fin 256) :
    FloatOps.matmul dot_S2000x512_S512x256_S2000x256_1_0_0_1_n_n none x w (constant S2000x256 .f32 0x00000000#32) (ix2 p q)
      = ∑ k : Fin 512, x (ix2 p k) * w (ix2 k q) := by
  rw [Ideal.matmul_constant_zero_apply, ← Equiv.sum_comp (contrEquiv1 dot_S2000x512_S512x256_S2000x256_1_0_0_1_n_n 512 rfl rfl).symm]
  refine Finset.sum_congr rfl fun k _ => ?_
  have hk := contrEquiv1_symm_val dot_S2000x512_S512x256_S2000x256_1_0_0_1_n_n 512 rfl rfl k
  have el : dot_S2000x512_S512x256_S2000x256_1_0_0_1_n_n.lhsIdx (ix2 p q) ((contrEquiv1 dot_S2000x512_S512x256_S2000x256_1_0_0_1_n_n 512 rfl rfl).symm k) = ix2 p k := funext fun a => Fin.ext (by
    match a with
    | ⟨0, _⟩ => exact lhs_0 _ _
    | ⟨1, _⟩ => exact (lhs_1 _ _).trans hk)
  have er : dot_S2000x512_S512x256_S2000x256_1_0_0_1_n_n.rhsIdx (ix2 p q) ((contrEquiv1 dot_S2000x512_S512x256_S2000x256_1_0_0_1_n_n 512 rfl rfl).symm k) = ix2 k q := funext fun a => Fin.ext (by
    match a with
    | ⟨0, _⟩ => exact (rhs_0 _ _).trans hk
    | ⟨1, _⟩ => exact rhs_1 _ _)
  rw [el, er]

/-- The body's value at row `p`, column `q` of its block: that sum plus the bias at column `q`. -/
theorem pay_apply (x : Vec Ideal S2000x512 .f32) (w : Vec Ideal S512x256 .f32) (b : Vec Ideal S256 .f32) (p : Fin 2000) (q : Fin 256) :
    k2_pay1 x w b (ix2 p q) = (∑ k : Fin 512, x (ix2 p k) * w (ix2 k q)) + b (ix1 q) := by
  unfold k2_pay1
  simp only [shapeCast_self]
  rw [addf_apply]
  refine congrArg₂ (· + ·) (dot_apply x w p q) ?_
  exact (broadcastTo_1b_ab_apply _ _ p q).trans (shapeCast_a_1a_apply b _ 0 q)

/- the buffer contents the region is entered with: any -/
variable (V : (c : Dev nD) → (b : Ref sig .tc) → Buf (Elt Ideal) ((c : Thread nD τ).loc b))

/-- The row block and the output move with the point; the weight and the bias are read whole at every point. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

/-- Point `t`'s block of the left operand is rows `2000 t … 2000 t + 1999` of the joined array. -/
theorem x_blk (c : Dev nD) (t : Fin cfg2.N) (p : Fin 2000) (k : Fin 512) (kk : S20000x512.Idx)
    (hk0 : (kk 0).val = 2000 * t.val + p.val) (hk1 : (kk 1).val = k.val) :
    (iblk2 V c 0 t : Vec Ideal S2000x512 .f32) (ix2 p k) = (V c main_v15 : S20000x512.Idx → Elt Ideal .f32) kk := by
  obtain ⟨e0, e1, -, -, -, -, -⟩ := idx_facts t
  unfold iblk2
  rw [View.read_apply]
  show V c main_v15 _ = V c main_v15 _
  congr 1
  funext a
  apply Fin.ext
  match a with
  | ⟨0, _⟩ => show win2_0.index t (0 : Fin 2) * 2000 + 1 * p.val = (kk 0).val; rw [e0, hk0]; omega
  | ⟨1, _⟩ => show win2_0.index t (1 : Fin 2) * 512 + 1 * k.val = (kk 1).val; rw [e1, hk1]; omega

/-- Every point's block of the weight is the whole weight. -/
theorem w_blk (c : Dev nD) (t : Fin cfg2.N) (k : Fin 512) (q : Fin 256) (kk : S512x256.Idx)
    (hk0 : (kk 0).val = k.val) (hk1 : (kk 1).val = q.val) :
    (iblk2 V c 1 t : Vec Ideal S512x256 .f32) (ix2 k q) = (V c main_arg5 : S512x256.Idx → Elt Ideal .f32) kk := by
  obtain ⟨-, -, e0, e1, -, -, -⟩ := idx_facts t
  unfold iblk2
  rw [View.read_apply]
  show V c main_arg5 _ = V c main_arg5 _
  congr 1
  funext a
  apply Fin.ext
  match a with
  | ⟨0, _⟩ => show win2_1.index t (0 : Fin 2) * 512 + 1 * k.val = (kk 0).val; rw [e0, hk0]; omega
  | ⟨1, _⟩ => show win2_1.index t (1 : Fin 2) * 256 + 1 * q.val = (kk 1).val; rw [e1, hk1]; omega

/-- Every point's block of the bias is the whole bias. -/
theorem b_blk (c : Dev nD) (t : Fin cfg2.N) (q : Fin 256) (kk : S256.Idx) (hk0 : (kk 0).val = q.val) :
    (iblk2 V c 2 t : Vec Ideal S256 .f32) (ix1 q) = (V c main_arg6 : S256.Idx → Elt Ideal .f32) kk := by
  obtain ⟨-, -, -, -, e0, -, -⟩ := idx_facts t
  unfold iblk2
  rw [View.read_apply]
  show V c main_arg6 _ = V c main_arg6 _
  congr 1
  funext a
  apply Fin.ext
  match a with
  | ⟨0, _⟩ => show win2_2.index t (0 : Fin 1) * 256 + 1 * q.val = (kk 0).val; rw [e0, hk0]; omega

/-- Row `p`, column `q` of point `t`'s output block is row `2000 t + p`, column `q` of the output array. -/
theorem out_emb (t : Fin cfg2.N) (p : Fin 2000) (q : Fin 256) :
    ((((cfg2.win 3).blk t).view.emb (ix2 p q) : S20000x256.Idx) 0).val = 2000 * t.val + p.val
      ∧ ((((cfg2.win 3).blk t).view.emb (ix2 p q) : S20000x256.Idx) 1).val = q.val := by
  obtain ⟨-, -, -, -, -, e0, e1⟩ := idx_facts t
  constructor
  · show win2_3.index t (0 : Fin 2) * 2000 + 1 * p.val = _; rw [e0]; omega
  · show win2_3.index t (1 : Fin 2) * 256 + 1 * q.val = _; rw [e1]; omega

/-- What point `t` writes back is block `t` of the layer's value on the three input arrays. -/
theorem flushed_eq (c : Dev nD) (t : Fin cfg2.N) :
    (dat2 (F := Ideal) V c).flushed 3 t
      = ((cfg2.win 3).blk t).view.read (Elt Ideal)
          (Cert.Spec.lin (M := 20000) (K := 512) (V c main_v15) (V c main_arg5) (V c main_arg6)) := by
  show (cfg2.win 3).cut (grid2.coords t) ((dat2 V c).after 3 t) = _
  rw [after2_3]
  unfold out2_3
  rw [View.canon_unit_zero hz]
  simp only [View.ld_unit_zero (S := S2000x512) hz, View.ld_unit_zero (S := S512x256) hz, View.ld_unit_zero (S := S256) hz1]
  funext j
  obtain ⟨p, q, rfl⟩ : ∃ (p : Fin 2000) (q : Fin 256), j = ix2 p q := ⟨j 0, j 1, eq_ix2 j⟩
  obtain ⟨h0, h1⟩ := out_emb t p q
  show k2_pay1 (iblk2 V c 0 t) (iblk2 V c 1 t) (iblk2 V c 2 t) (ix2 p q)
    = Cert.Spec.lin (M := 20000) (K := 512) (V c main_v15) (V c main_arg5) (V c main_arg6) (((cfg2.win 3).blk t).view.emb (ix2 p q))
  rw [pay_apply]
  unfold Cert.Spec.lin
  refine congrArg₂ (· + ·) (Finset.sum_congr rfl fun k _ => congrArg₂ (· * ·) ?_ ?_) ?_
  · exact x_blk V c t p k _ h0 rfl
  · exact w_blk V c t k q _ rfl h1
  · exact b_blk V c t q _ h1

/-! ## The blocks tile the rows -/

/-- An index of the output array is in point `t`'s block iff each coordinate is in the block's range on its axis. -/
theorem mem_blk (t : Fin cfg2.N) (i : S20000x256.Idx) :
    i ∈ ((cfg2.win 3).blk t).view.set ↔ ∀ a : Fin 2, win2_3.index t a * S2000x256.size a ≤ (i a).val
      ∧ (i a).val < win2_3.index t a * S2000x256.size a + S2000x256.size a := by
  show i ∈ ((View.whole main_v16).slice (win2_3.rect t)).set ↔ _
  rw [View.set_slice_whole, Rect.mem_set_unit]
  exact Iff.rfl

/-- Row `r` of the output array is in the block of point `r / 2000`. -/
theorem cover (i : S20000x256.Idx) :
    ∃ t : Fin cfg2.N, (cfg2.win 3).flush t = true ∧ i ∈ ((cfg2.win 3).blk t).view.set := by
  have hi0 : (i 0).val < 20000 := (i 0).isLt
  have hi1 : (i 1).val < 256 := (i 1).isLt
  have hN : cfg2.N = 10 := N_2
  let t : Fin cfg2.N := ⟨(i 0).val / 2000, by rw [hN]; omega⟩
  have ht : t.val = (i 0).val / 2000 := rfl
  obtain ⟨-, -, -, -, -, e0, e1⟩ := idx_facts t
  refine ⟨t, flush2_3 t, ?_⟩
  rw [mem_blk]
  intro a
  match a with
  | ⟨0, _⟩ =>
    show win2_3.index t (0 : Fin 2) * 2000 ≤ (i 0).val ∧ (i 0).val < win2_3.index t (0 : Fin 2) * 2000 + 2000
    rw [e0, ht]; omega
  | ⟨1, _⟩ =>
    show win2_3.index t (1 : Fin 2) * 256 ≤ (i 1).val ∧ (i 1).val < win2_3.index t (1 : Fin 2) * 256 + 256
    rw [e1]; omega

end Lin2

/- the buffer contents the region is entered with: any -/
variable (V : (c : Dev nD) → (b : Ref sig .tc) → Buf (Elt Ideal) ((c : Thread nD τ).loc b))

/-- After the region's last point its output array is that function of its input arrays. -/
theorem lin2 (c : Dev nD) :
    (dat2 (F := Ideal) V c).arrAt 3 cfg2.N = Cert.Spec.lin (M := 20000) (K := 512) (V c main_v15) (V c main_arg5) (V c main_arg6) :=
  (dat2 (F := Ideal) V c).arrAt_eq_of_cover 3 (Cert.Spec.lin (M := 20000) (K := 512) (V c main_v15) (V c main_arg5) (V c main_arg6))
    (fun t _ => Lin2.flushed_eq V c t) Lin2.cover

end Cert.KernelIdeal.Hand

end
-- ==== Proof.RegionLin3.lean ====
/-
  The second hop's dense layer, `g = emb_E_new · W_e2v + b_e2v`, as ONE array: 10 blocks of 2000 rows against the whole
  256 × 256 weight, plus the bias row; the blocks tile the 20000 rows.
-/
import proofs.«422035_j30425548324932_1_alg».proof.Proof.Gen.KernelIdeal.Frame
import proofs.«422035_j30425548324932_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen
open Idealize.ShloMosaic.ValueIdx

namespace Lin3

/-! ## The body's value at one entry of its block -/

/-- On the left operand's row axis the product reads the output's row. -/
theorem lhs_row (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
/-- On the left operand's inner axis it reads the summation index. -/
theorem lhs_inner (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
/-- On the right operand's inner axis it reads the summation index. -/
theorem rhs_inner (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
/-- On the right operand's column axis it reads the output's column. -/
theorem rhs_col (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The product of a block of rows with the weight, from a zero accumulator, at entry `(p, q)`: row `p` against column `q`. -/
theorem mm_apply (x0 : Vec Ideal S2000x256 .f32) (x1 : Vec Ideal S256x256 .f32) (p : Fin 2000) (q : Fin 256) :
    matmul (F := Ideal) (φ₁ := .f32) (φ₂ := .f32) dot_S2000x256_S256x256_S2000x256_1_0_0_1_n_n none x0 x1 (constant S2000x256 .f32 0x00000000#32) (ix2 p q)
      = ∑ k : Fin 256, x0 (ix2 p k) * x1 (ix2 k q) := by
  refine (Ideal.matmul_constant_zero_apply dot_S2000x256_S256x256_S2000x256_1_0_0_1_n_n none x0 x1 (ix2 p q)).trans ?_
  rw [← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx (ix2 p q) ((ValueIdx.contrEquiv1 dot_S2000x256_S256x256_S2000x256_1_0_0_1_n_n 256 rfl rfl).symm k) = ix2 p k := funext fun a => Fin.ext (by
    match a with
    | ⟨0, _⟩ => exact lhs_row _ _
    | ⟨1, _⟩ => exact (lhs_inner _ _).trans hk)
  have er : dot_S2000x256_S256x256_S2000x256_1_0_0_1_n_n.rhsIdx (ix2 p q) ((ValueIdx.contrEquiv1 dot_S2000x256_S256x256_S2000x256_1_0_0_1_n_n 256 rfl rfl).symm k) = ix2 k q := funext fun a => Fin.ext (by
    match a with
    | ⟨0, _⟩ => exact (rhs_inner _ _).trans hk
    | ⟨1, _⟩ => exact rhs_col _ _)
  rw [el, er]

/-- The bias as a one-row array, repeated down the rows, at entry `(p, q)`: bias entry `q`. -/
theorem bias_apply (x2 : Vec Ideal S256 .f32) (p : Fin 2000) (q : Fin 256) :
    broadcastTo S2000x256 (shapeCast S1x256 x2 shapeCasts_S256_S1x256) broadcasts_S1x256_S2000x256 (ix2 p q) = x2 (ix1 q) :=
  (broadcastTo_1b_ab_apply _ broadcasts_S1x256_S2000x256 p q).trans (shapeCast_a_1a_apply x2 shapeCasts_S256_S1x256 0 q)

/-- The body's stored value at entry `(p, q)` of its block: row `p` of the block of rows (recast to its own shape, which
    changes nothing) against column `q` of the weight, plus bias entry `q`. -/
theorem pay_apply (x0 : Vec Ideal S2000x256 .f32) (x1 : Vec Ideal S256x256 .f32) (x2 : Vec Ideal S256 .f32) (p : Fin 2000) (q : Fin 256) :
    k3_pay1 (F := Ideal) x0 x1 x2 (ix2 p q) = (∑ k : Fin 256, x0 (ix2 p k) * x1 (ix2 k q)) + x2 (ix1 q) := by
  unfold k3_pay1
  show matmul (F := Ideal) (φ₁ := .f32) (φ₂ := .f32) dot_S2000x256_S256x256_S2000x256_1_0_0_1_n_n none (shapeCast S2000x256 x0 shapeCasts_S2000x256_S2000x256) x1 (constant S2000x256 .f32 0x00000000#32) (ix2 p q)
      + broadcastTo S2000x256 (shapeCast S1x256 x2 shapeCasts_S256_S1x256) broadcasts_S1x256_S2000x256 (ix2 p q) = _
  rw [shapeCast_self, mm_apply, bias_apply]

/-- The dense layer at entry `(r, q)`, its coordinates named. -/
theorem lin_at {M K : Nat} (X : FVec Ideal ⟨2, ![M, K]⟩ .f32) (W : FVec Ideal ⟨2, ![K, 256]⟩ .f32) (B : FVec Ideal ⟨1, ![256]⟩ .f32)
    (r : Fin M) (q : Fin 256) :
    Cert.Spec.lin X W B (ix2 r q) = (∑ k : Fin K, X (ix2 r k) * W (ix2 k q)) + B (ix1 q) := rfl

/-! ## The blocks the region's points read and write -/

/- the buffer contents the region is entered with: any -/
variable (V : (c : Dev nD) → (b : Ref sig .tc) → Buf (Elt Ideal) ((c : Thread nD τ).loc b))

/-- The zero offsets of a rank-2 block, as the constant function. -/
theorem hz2 : (![0, 0] : Fin 2 → Nat) = fun _ => 0 := funext fun a => by fin_cases a <;> rfl
/-- The zero offset of a rank-1 block, as the constant function. -/
theorem hz1 : (![0] : Fin 1 → Nat) = fun _ => 0 := funext fun a => by fin_cases a <;> rfl

/-- The index maps over the 10 points: point `t` reads and writes row block `t` (column block 0); the weight and the
    bias are one block each, the same at every point. -/
theorem idx_facts : ∀ t : Fin cfg3.N, win3_3.index t (0 : Fin 2) = t.val ∧ win3_3.index t (1 : Fin 2) = 0
    ∧ win3_0.index t (0 : Fin 2) = t.val ∧ win3_0.index t (1 : Fin 2) = 0
    ∧ win3_1.index t (0 : Fin 2) = 0 ∧ win3_1.index t (1 : Fin 2) = 0
    ∧ win3_2.index t (0 : Fin 1) = 0 :=
  (by decide +kernel : ∀ t : Fin grid3.N, _)

/-- The rows' block at point `t` is rows `2000 t … 2000 t + 1999` of the rows' array. -/
theorem rows_blk (c : Dev nD) (t : Fin cfg3.N) (x : S2000x256.Idx) (k : S20000x256.Idx)
    (hk0 : (k 0).val = t.val * 2000 + (x 0).val) (hk1 : (k 1).val = (x 1).val) :
    (iblk3 V c 0 t : Vec Ideal S2000x256 .f32) x = (V c main_v16 : S20000x256.Idx → Elt Ideal .f32) k := by
  obtain ⟨-, -, e0, e1, -, -, -⟩ := idx_facts t
  unfold iblk3
  rw [View.read_apply]
  show V c main_v16 _ = V c main_v16 _
  congr 1
  funext a
  apply Fin.ext
  match a with
  | ⟨0, _⟩ => show win3_0.index t (0 : Fin 2) * 2000 + 1 * (x 0).val = (k 0).val; rw [e0, hk0]; omega
  | ⟨1, _⟩ => show win3_0.index t (1 : Fin 2) * 256 + 1 * (x 1).val = (k 1).val; rw [e1, hk1]; omega

/-- The weight's block at every point is the whole weight. -/
theorem weight_blk (c : Dev nD) (t : Fin cfg3.N) (x : S256x256.Idx) :
    (iblk3 V c 1 t : Vec Ideal S256x256 .f32) x = (V c main_arg7 : S256x256.Idx → Elt Ideal .f32) x := by
  obtain ⟨-, -, -, -, e0, e1, -⟩ := idx_facts t
  unfold iblk3
  rw [View.read_apply]
  show V c main_arg7 _ = V c main_arg7 _
  congr 1
  funext a
  apply Fin.ext
  match a with
  | ⟨0, _⟩ => show win3_1.index t (0 : Fin 2) * 256 + 1 * (x 0).val = (x 0).val; rw [e0]; omega
  | ⟨1, _⟩ => show win3_1.index t (1 : Fin 2) * 256 + 1 * (x 1).val = (x 1).val; rw [e1]; omega

/-- The bias's block at every point is the whole bias. -/
theorem bias_blk (c : Dev nD) (t : Fin cfg3.N) (x : S256.Idx) :
    (iblk3 V c 2 t : Vec Ideal S256 .f32) x = (V c main_arg8 : S256.Idx → Elt Ideal .f32) x := by
  obtain ⟨-, -, -, -, -, -, e0⟩ := idx_facts t
  unfold iblk3
  rw [View.read_apply]
  show V c main_arg8 _ = V c main_arg8 _
  congr 1
  funext a
  apply Fin.ext
  match a with
  | ⟨0, _⟩ => show win3_2.index t (0 : Fin 1) * 256 + 1 * (x 0).val = (x 0).val; rw [e0]; omega

/-- WHAT POINT `t` WRITES BACK is block `t` of the dense layer of the three arrays as the region finds them. -/
theorem flushed_eq (c : Dev nD) (t : Fin cfg3.N) :
    (dat3 (F := Ideal) V c).flushed 3 t = ((cfg3.win 3).blk t).view.read (Elt Ideal)
      (Cert.Spec.lin (M := 20000) (K := 256) (V c main_v16) (V c main_arg7) (V c main_arg8)) := by
  show (cfg3.win 3).cut (grid3.coords t) ((dat3 (F := Ideal) V c).after 3 t) = _
  rw [after3_3]
  unfold out3_3
  rw [View.canon_unit_zero hz2]
  simp only [View.ld_unit_zero (S := S2000x256) hz2, View.ld_unit_zero (S := S256x256) hz2, View.ld_unit_zero (S := S256) hz1]
  obtain ⟨e0, e1, -, -, -, -, -⟩ := idx_facts t
  funext j
  obtain ⟨p, q, rfl⟩ : ∃ (p : Fin 2000) (q : Fin 256), j = ValueIdx.ix2 p q := ⟨j 0, j 1, ValueIdx.eq_ix2 j⟩
  show k3_pay1 (F := Ideal) (iblk3 V c 0 t) (iblk3 V c 1 t) (iblk3 V c 2 t) (ix2 p q)
    = Cert.Spec.lin (M := 20000) (K := 256) (V c main_v16) (V c main_arg7) (V c main_arg8) (((cfg3.win 3).blk t).view.emb (ix2 p q))
  refine (pay_apply _ _ _ p q).trans ?_
  have h10 : t.val < 10 := lt_of_lt_of_eq t.isLt N_3
  have hlt : t.val * 2000 + p.val < 20000 := by omega
  have hi : ((cfg3.win 3).blk t).view.emb (ix2 p q) = (ix2 (⟨t.val * 2000 + p.val, hlt⟩ : Fin 20000) q : S20000x256.Idx) := by
    funext a; apply Fin.ext
    match a with
    | ⟨0, _⟩ => show win3_3.index t (0 : Fin 2) * 2000 + 1 * p.val = t.val * 2000 + p.val; rw [e0]; omega
    | ⟨1, _⟩ => show win3_3.index t (1 : Fin 2) * 256 + 1 * q.val = q.val; rw [e1]; omega
  rw [hi]
  refine Eq.trans ?_ (lin_at _ _ _ _ _).symm
  refine congrArg₂ _ (Finset.sum_congr rfl fun k _ => ?_) ?_
  · rw [rows_blk V c t (ix2 p k) (ix2 (⟨t.val * 2000 + p.val, hlt⟩ : Fin 20000) k) rfl rfl, weight_blk]
  · exact bias_blk V c t (ix1 q)

/-- An index of the output array is in point `t`'s block iff each coordinate is in the block's range on its axis. -/
theorem mem_blk (t : Fin cfg3.N) (i : S20000x256.Idx) :
    i ∈ ((cfg3.win 3).blk t).view.set ↔ ∀ a : Fin 2, win3_3.index t a * S2000x256.size a ≤ (i a).val ∧ (i a).val < win3_3.index t a * S2000x256.size a + S2000x256.size a := by
  show i ∈ ((View.whole main_v17).slice (win3_3.rect t)).set ↔ _
  rw [View.set_slice_whole, Rect.mem_set_unit]
  exact Iff.rfl

/-- The 10 blocks tile the rows: row `r` is in the block of point `r / 2000`. -/
theorem cover (i : S20000x256.Idx) : ∃ t : Fin cfg3.N, (cfg3.win 3).flush t = true ∧ i ∈ ((cfg3.win 3).blk t).view.set := by
  have hi0 : (i 0).val < 20000 := (i 0).isLt
  have hi1 : (i 1).val < 256 := (i 1).isLt
  have hN : (i 0).val / 2000 < cfg3.N := lt_of_lt_of_eq (show (i 0).val / 2000 < 10 by omega) N_3.symm
  obtain ⟨e0, e1, -, -, -, -, -⟩ := idx_facts ⟨(i 0).val / 2000, hN⟩
  refine ⟨⟨(i 0).val / 2000, hN⟩, flush3_3 _, ?_⟩
  rw [mem_blk]
  intro a
  match a with
  | ⟨0, _⟩ =>
    show win3_3.index ⟨(i 0).val / 2000, hN⟩ (0 : Fin 2) * 2000 ≤ (i 0).val ∧ (i 0).val < win3_3.index ⟨(i 0).val / 2000, hN⟩ (0 : Fin 2) * 2000 + 2000
    rw [e0]
    show (i 0).val / 2000 * 2000 ≤ (i 0).val ∧ (i 0).val < (i 0).val / 2000 * 2000 + 2000
    omega
  | ⟨1, _⟩ =>
    show win3_3.index ⟨(i 0).val / 2000, hN⟩ (1 : Fin 2) * 256 ≤ (i 1).val ∧ (i 1).val < win3_3.index ⟨(i 0).val / 2000, hN⟩ (1 : Fin 2) * 256 + 256
    rw [e1]; omega

end Lin3

/- the buffer contents the region is entered with: any -/
variable (V : (c : Dev nD) → (b : Ref sig .tc) → Buf (Elt Ideal) ((c : Thread nD τ).loc b))

/-- After the region's last point its output array is that function of its input arrays. -/
theorem lin3 (c : Dev nD) :
    (dat3 (F := Ideal) V c).arrAt 3 cfg3.N = Cert.Spec.lin (M := 20000) (K := 256) (V c main_v16) (V c main_arg7) (V c main_arg8) :=
  (dat3 (F := Ideal) V c).arrAt_eq_of_cover 3 (Cert.Spec.lin (M := 20000) (K := 256) (V c main_v16) (V c main_arg7) (V c main_arg8))
    (fun t _ => Lin3.flushed_eq V c t) Lin3.cover

end Cert.KernelIdeal.Hand

end
-- ==== Proof.KCol.lean ====
/-
  The counts as a column. The kernel's program reshapes the vector of `M` per-segment counts to an `M × 1` array before the
  mean reads it; a reshape keeps the row-major position, and position `r` of the vector is position `(r, 0)` of the column,
  so the reshaped array is `Spec.col` of the counts.
-/
import proofs.«422035_j30425548324932_1_alg».proof.KernelIdeal
import proofs.«422035_j30425548324932_1_alg».proof.Proof.Gen.KernelIdeal
import proofs.«422035_j30425548324932_1_alg».proof.Proof.Spec
import Idealize.ShloMosaic.Lib.Pipeline.Value
import Idealize.ShloMosaic.Lib.ValueIdx
import Idealize.ShloMosaic.Lib.ValueLayout

noncomputable section

open Idealize.ShloMosaic

namespace Cert.KernelIdeal.Hand

open Cert.KernelIdeal Cert.KernelIdeal.Gen

/-- A vector of `a` entries reshaped to an `a × 1` array reads, at `j`, the vector at `j`'s row: a reshape keeps the
    row-major position, the position of `j` in the array is `(j 0) * 1 + (j 1)` with `j 1 < 1`, and the position of
    row `j 0` in the vector is `j 0`. -/
theorem shapeCast_a_a1_apply {α : Type} {a : ℕ} (x : (⟨1, ![a]⟩ : Shape).Idx → α)
    (h : (⟨1, ![a]⟩ : Shape).ShapeCasts ⟨2, ![a, 1]⟩) (j : (⟨2, ![a, 1]⟩ : Shape).Idx) :
    shapeCast ⟨2, ![a, 1]⟩ x h j = x (ValueIdx.ix1 (j 0)) :=
  shapeCast_apply x h _ _ (by
    have h1 : (j 1).val < 1 := ValueIdx.idx2_lt1 j
    rw [Shape.rowMajor_val_one, Shape.rowMajor_val_two]
    show (j 0).val = (j 0).val * 1 + (j 1).val
    omega)

/-- The 20000 hyperedge counts, reshaped to a column, are `Spec.col` of them. -/
theorem col_E (C : FVec Ideal S20000 .f32) : shapeCast S20000x1 C shapeCasts_S20000_S20000x1 = Cert.Spec.col C := by
  funext j
  exact shapeCast_a_a1_apply C _ j

/-- The 100000 node counts, reshaped to a column, are `Spec.col` of them. -/
theorem col_V (C : FVec Ideal S100000 .f32) : shapeCast S100000x1 C shapeCasts_S100000_S100000x1 = Cert.Spec.col C := by
  funext j
  exact shapeCast_a_a1_apply C _ j

end Cert.KernelIdeal.Hand

end
-- ==== Proof.Assembly.lean ====
/-
  The five conjuncts. The two kernel programs run, and keep their arguments, by their generated frames. The reference runs
  by its generated run. The idealization rewrote nothing, so `preserves` holds trivially. For the value claim: under the
  precondition every node id is in `[0, 100000)` and every hyperedge id in `[0, 20000)`, so the kernel program ends with
  the closed terms `kerV`, `kerE` in its two result buffers; the reference ends with `refV`, `refE`; and from memories
  agreeing on the arguments those are equal.
-/
import proofs.«422035_j30425548324932_1_alg».proof.Defs
import proofs.«422035_j30425548324932_1_alg».proof.Proof.Gen.Kernel.Frame
import proofs.«422035_j30425548324932_1_alg».proof.Proof.RunVal
import proofs.«422035_j30425548324932_1_alg».proof.Proof.Bridge
import proofs.«422035_j30425548324932_1_alg».proof.Proof.PreRange
import proofs.«422035_j30425548324932_1_alg».proof.Proof.RegionLin0
import proofs.«422035_j30425548324932_1_alg».proof.Proof.RegionLin2
import proofs.«422035_j30425548324932_1_alg».proof.Proof.RegionLin3
import proofs.«422035_j30425548324932_1_alg».proof.Proof.KCol

set_option maxRecDepth 16384

noncomputable section

open Idealize.ShloMosaic Idealize.ShloMosaic.TcCoe Idealize.SL.Sem

namespace Cert.Proof.Hand

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Hand.run m ρ)

/-- The regions' and reshapes' facts, gathered. -/
theorem pieces : Cert.KernelIdeal.Hand.Pieces :=
  ⟨Cert.KernelIdeal.Hand.lin0, Cert.KernelIdeal.Hand.lin2, Cert.KernelIdeal.Hand.lin3, Cert.KernelIdeal.Hand.col_E, Cert.KernelIdeal.Hand.col_V⟩

theorem algebraic : Cert.algebraic_KernelIdeal_ReferenceIdeal := by
  intro m ρ m' ρ' hpre hagree
  have hr : Cert.KernelIdeal.Hand.InRange m := fun c => Cert.Pre_finite_inputs.Hand.ranges _ _ _ _ _ _ _ _ _ (hpre c)
  refine ⟨fun c => Cert.KernelIdeal.Hand.kerV m c, fun c => Cert.KernelIdeal.Hand.kerE m c, ?_, ?_⟩
  · exact (θ_run Cert.KernelIdeal.defs _ _).mono
      (fun _ h c => ⟨(h c).1.trans (Cert.KernelIdeal.Hand.W11_V m ρ pieces hr c),
        (h c).2.1.trans (Cert.KernelIdeal.Hand.W11_E m ρ pieces hr c), (h c).2.2⟩)
      (Cert.KernelIdeal.Gen.run_vals m ρ)
  · exact (θ_run Cert.ReferenceIdeal.defs _ _).mono
      (fun _ h c => ⟨(h c).1.trans (Cert.Bridge.v_eq m m' hagree c), (h c).2.1.trans (Cert.Bridge.e_eq m m' hagree c), (h c).2.2⟩)
      (Cert.ReferenceIdeal.Hand.run m' ρ')

end Cert.Proof.Hand

end
-- ==== Proof.lean ====
/-
  A two-hop hypergraph layer over the extended reals, kernel against reference.

  The layer: `h = emb_V · W_v2e + b_v2e`; for each hyperedge the mean of `h` over the nodes of its incidences (an empty
  hyperedge's count replaced by one), its positive part; that joined to `emb_E` and through the dense layer
  `· W_fuse + b_fuse`, giving the new hyperedge features `E`; `g = E · W_e2v + b_e2v`; for each node the mean of `g` over the
  hyperedges of its incidences, its positive part, giving the new node features. The incidences are the columns of
  `edge_index`: row 0 node ids, row 1 hyperedge ids.

  The kernel program computes the three dense layers and the two means in five row-tiled regions (each output array is
  one function, `Spec.lin` or `Spec.meanRelu`, of its input arrays: the blocks tile the rows) and leaves the gathers and
  segment sums to the host, as the reference does. The two differ in one place: the kernel's `take` replaces a row
  whose id is out of range by a fill pattern, where the reference's indexing clamps the id. With every id in range —
  the precondition's last two conjuncts — the fill is never read, both gathers read the same rows, and the two programs
  end with the same terms: a matrix product accumulated from zero is the `dot_general`'s sum over the inner axis, the
  bias and the counts reach an entry through their broadcasts, the host's quotient is the kernels', and the remaining
  host operations are the same on both sides. No law of the extended reals beyond reindexing a finite sum is used, so
  the finiteness of the float inputs plays no part.

  The frames of the two kernel programs are their generated frames; the reference's is its generated run; the
  idealization rewrote nothing.
-/
import proofs.«422035_j30425548324932_1_alg».proof.Defs
import proofs.«422035_j30425548324932_1_alg».proof.Proof.Gen.Kernel
import proofs.«422035_j30425548324932_1_alg».proof.Proof.Gen.KernelIdeal
import proofs.«422035_j30425548324932_1_alg».proof.Proof.Gen.ReferenceIdeal
import proofs.«422035_j30425548324932_1_alg».proof.Proof.Gen.Pre_finite_inputs
import proofs.«422035_j30425548324932_1_alg».proof.Proof.Assembly

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Proof.Hand.frame_k, Cert.Proof.Hand.frame_ki, Cert.Proof.Hand.frame_ri, trivial, Cert.Proof.Hand.algebraic⟩

end Cert.Proof

end
